-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x1000000 : Shape := ⟨2, ![4, 1000000]⟩
abbrev S1000000x3 : Shape := ⟨2, ![1000000, 3]⟩
abbrev S259x64 : Shape := ⟨2, ![259, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S1x1000000 : Shape := ⟨2, ![1, 1000000]⟩
abbrev S1000000 : Shape := ⟨1, ![1000000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x3 : S_.BroadcastsInDim S1000000x3 (![] : Fin 0 → Fin S1000000x3.rank)
  reducesTo_S1000000x3_S_d0_1 : S1000000x3.ReducesTo [0, 1] S_
  bcast_S_S259x64 : S_.BroadcastsInDim S259x64 (![] : Fin 0 → Fin S259x64.rank)
  reducesTo_S259x64_S_d0_1 : S259x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S4x1000000_S1x1000000_0_0 : S4x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_
  slices_S4x1000000_S1x1000000_3_0 : S4x1000000.Slices ![3, 0] S1x1000000

variable [Facts]

def fn_part3 {F : FTy → Type} [FloatOps F] (main_arg1 : IVec S4x1000000 32) (main_v43 : IVec S_ 1) (main_v50 : IVec S1000000 1) (main_c_18 : IVec S_ 1) : IVec S_ 1 :=
  let main_v51 : IVec S_ 1 := (fun x v => Host.reduce IntOp.andi x v reducesTo_S1000000_S_d0 h_S_) main_v50 main_c_18
  let main_v52 : IVec S_ 1 := andi main_v43 main_v51
  let main_v53 : IVec S1x1000000 32 := (extractStridedSlice S1x1000000 ![3, 0] · slices_S4x1000000_S1x1000000_3_0) main_arg1
  let main_v54 : IVec S1000000 32 := shapeCast S1000000 main_v53 shapeCasts_S1x1000000_S1000000
  let main_c_19 : IVec S_ 32 := constantI S_ 32 0#32
  let main_v55 : IVec S1000000 32 := broadcastInDim S1000000 ![] bcast_S_S1000000 main_c_19
  let main_v56 : IVec S1000000 1 := cmpi .sge main_v54 main_v55
  let main_c_20 : IVec S_ 32 := constantI S_ 32 100000#32
  let main_v57 : IVec S1000000 32 := broadcastInDim S1000000 ![] bcast_S_S1000000 main_c_20
  let main_v58 : IVec S1000000 1 := cmpi .slt main_v54 main_v57
  let main_v59 : IVec S1000000 1 := andi main_v56 main_v58
  let main_c_21 : IVec S_ 1 := constantI S_ 1 1#1
  let main_v60 : IVec S_ 1 := (fun x v => Host.reduce IntOp.andi x v reducesTo_S1000000_S_d0 h_S_) main_v59 main_c_21
  let main_v61 : IVec S_ 1 := andi main_v52 main_v60
  main_v61

def fn_part2 {F : FTy → Type} [FloatOps F] (main_arg1 : IVec S4x1000000 32) (main_arg8 : FVec F S128 .f32) (main_arg9 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : IVec S1x1000000 32 := (extractStridedSlice S1x1000000 ![0, 0] · slices_S4x1000000_S1x1000000_0_0) main_arg1
  let main_v45 : IVec S1000000 32 := shapeCast S1000000 main_v44 shapeCasts_S1x1000000_S1000000
  let main_c_16 : IVec S_ 32 := constantI S_ 32 0#32
  let main_v46 : IVec S1000000 32 := broadcastInDim S1000000 ![] bcast_S_S1000000 main_c_16
  let main_v47 : IVec S1000000 1 := cmpi .sge main_v45 main_v46
  let main_c_17 : IVec S_ 32 := constantI S_ 32 100000#32
  let main_v48 : IVec S1000000 32 := broadcastInDim S1000000 ![] bcast_S_S1000000 main_c_17
  let main_v49 : IVec S1000000 1 := cmpi .slt main_v45 main_v48
  let main_v50 : IVec S1000000 1 := andi main_v47 main_v49
  let main_c_18 : IVec S_ 1 := constantI S_ 1 1#1
  fn_part3 (F := F) main_arg1 main_v43 main_v50 main_c_18

def fn_part1 {F : FTy → Type} [FloatOps F] (main_arg1 : IVec S4x1000000 32) (main_arg5 : FVec F S64x64 .f32) (main_arg6 : FVec F S64 .f32) (main_arg7 : FVec F S64x128 .f32) (main_arg8 : FVec F S128 .f32) (main_arg9 : FVec F S128x128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S4x1000000 32) (main_arg2 : FVec F S1000000x3 .f32) (main_arg3 : FVec F S259x64 .f32) (main_arg4 : FVec F S64 .f32) (main_arg5 : FVec F S64x64 .f32) (main_arg6 : FVec F S64 .f32) (main_arg7 : FVec F S64x128 .f32) (main_arg8 : FVec F S128 .f32) (main_arg9 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x3 .f32 := Host.absf main_arg2
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S259x64 .f32 := Host.absf main_arg3
  let main_cst_2 : FVec F S_ .f32 := constant S_ .f32 0x7F800000#32
  let main_v10 : FVec F S259x64 .f32 := broadcastInDim S259x64 ![] bcast_S_S259x64 main_cst_2
  let main_v11 : IVec S259x64 1 := cmpf .olt main_v9 main_v10
  let main_c_3 : IVec S_ 1 := constantI S_ 1 1#1
  let main_v12 : IVec S_ 1 := (fun x v => Host.reduce IntOp.andi x v reducesTo_S259x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S4x1000000 : Shape := ⟨2, ![4, 1000000]⟩
abbrev S1000000x3 : Shape := ⟨2, ![1000000, 3]⟩
abbrev S259x64 : Shape := ⟨2, ![259, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S1000000x259 : Shape := ⟨2, ![1000000, 259]⟩
abbrev S1x64 : Shape := ⟨2, ![1, 64]⟩
abbrev S1x128 : Shape := ⟨2, ![1, 128]⟩
abbrev S5000x259 : Shape := ⟨2, ![5000, 259]⟩
abbrev S5000x128 : Shape := ⟨2, ![5000, 128]⟩
abbrev S5000x64 : Shape := ⟨2, ![5000, 64]⟩
abbrev S100000 : Shape := ⟨1, ![100000]⟩
abbrev S100000x1 : Shape := ⟨2, ![100000, 1]⟩
abbrev S2000x128 : Shape := ⟨2, ![2000, 128]⟩

abbrev nBuf : Space → Nat
  | .hbm => 102
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S4x1000000, .i32⟩
  | .hbm, ⟨2, _⟩ => ⟨S1000000x3, .f32⟩
  | .hbm, ⟨3, _⟩ => ⟨S259x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1, .i32⟩
  | .hbm, ⟨27, _⟩ => ⟨S_, .i32⟩
  | .hbm, ⟨28, _⟩ => ⟨S1000000x1, .i32⟩
  | .hbm, ⟨29, _⟩ => ⟨S1000000x1, .i1⟩
  | .hbm, ⟨30, _⟩ => ⟨S1x1, .i32⟩
  | .hbm, ⟨31, _⟩ => ⟨S1000000x1, .i32⟩
  | .hbm, ⟨32, _⟩ => ⟨S1000000x1, .i1⟩
  | .hbm, ⟨33, _⟩ => ⟨S1000000x1, .i1⟩
  | .hbm, ⟨34, _⟩ => ⟨S_, .i1⟩
  | .hbm, ⟨35, _⟩ => ⟨S1000000, .i1⟩
  | .hbm, ⟨36, _⟩ => ⟨S1000000x128, .f32⟩
  | .hbm, ⟨37, _⟩ => ⟨S1000000x128, .i1⟩
  | .hbm, ⟨38, _⟩ => ⟨S_, .f32⟩
  | .hbm, ⟨39, _⟩ => ⟨S1000000x128, .f32⟩
  | .hbm, ⟨40, _⟩ => ⟨S1000000x128, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1, .i32⟩
  | .hbm, ⟨50, _⟩ => ⟨S_, .i32⟩
  | .hbm, ⟨51, _⟩ => ⟨S1000000x1, .i32⟩
  | .hbm, ⟨52, _⟩ => ⟨S1000000x1, .i1⟩
  | .hbm, ⟨53, _⟩ => ⟨S1x1, .i32⟩
  | .hbm, ⟨54, _⟩ => ⟨S1000000x1, .i32⟩
  | .hbm, ⟨55, _⟩ => ⟨S1000000x1, .i1⟩
  | .hbm, ⟨56, _⟩ => ⟨S1000000x1, .i1⟩
  | .hbm, ⟨57, _⟩ => ⟨S_, .i1⟩
  | .hbm, ⟨58, _⟩ => ⟨S1000000, .i1⟩
  | .hbm, ⟨59, _⟩ => ⟨S1000000x128, .f32⟩
  | .hbm, ⟨60, _⟩ => ⟨S1000000x128, .i1⟩
  | .hbm, ⟨61, _⟩ => ⟨S_, .f32⟩
  | .hbm, ⟨62, _⟩ => ⟨S1000000x128, .f32⟩
  | .hbm, ⟨63, _⟩ => ⟨S1000000x128, .f32⟩
  | .hbm, ⟨64, _⟩ => ⟨S1000000x259, .f32⟩
  | .hbm, ⟨65, _⟩ => ⟨S1x64, .f32⟩
  | .hbm, ⟨66, _⟩ => ⟨S1x64, .f32⟩
  | .hbm, ⟨67, _⟩ => ⟨S1x128, .f32⟩
  | .hbm, ⟨68, _⟩ => ⟨S1000000x128, .f32⟩
  | .hbm, ⟨69, _⟩ => ⟨S_, .f32⟩
  | .hbm, ⟨70, _⟩ => ⟨S100000x128, .f32⟩
  | .hbm, ⟨71, _⟩ => ⟨S1000000x1, .i32⟩
  | .hbm, ⟨72, _⟩ => ⟨S100000x128, .f32⟩
  | .hbm, ⟨73, _⟩ => ⟨S_, .f32⟩
  | .hbm, ⟨74, _⟩ => ⟨S1000000, .f32⟩
  | .hbm, ⟨75, _⟩ => ⟨S_, .f32⟩
  | .hbm, ⟨76, _⟩ => ⟨S100000, .f32⟩
  | .hbm, ⟨77, _⟩ => ⟨S1000000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S1000000x1, .i32⟩
  | .hbm, ⟨88, _⟩ => ⟨S100000x128, .f32⟩
  | .hbm, ⟨89, _⟩ => ⟨S_, .f32⟩
  | .hbm, ⟨90, _⟩ => ⟨S1000000, .f32⟩
  | .hbm, ⟨91, _⟩ => ⟨S_, .f32⟩
  | .hbm, ⟨92, _⟩ => ⟨S100000, .f32⟩
  | .hbm, ⟨93, _⟩ => ⟨S1000000x1, .i32⟩
  | .hbm, ⟨94, _⟩ => ⟨S100000, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x128, .f32⟩
  | .local _ .vmem, ⟨0, _⟩ => ⟨S5000x259, .f32⟩
  | .local _ .vmem, ⟨1, _⟩ => ⟨S5000x259, .f32⟩
  | .local _ .vmem, ⟨2, _⟩ => ⟨S259x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v8 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_cst : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_cst_0 : Ref sig .tc := ⟨.hbm, 73, rfl⟩
abbrev main_v18 : Ref sig .tc := ⟨.hbm, 74, rfl⟩
abbrev main_cst_1 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_2 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_3 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_cst_4 : Ref sig .tc := ⟨.hbm, 89, rfl⟩
abbrev main_v30 : Ref sig .tc := ⟨.hbm, 90, rfl⟩
abbrev main_cst_5 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_cst_6 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x259 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S259x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S4x1000000_S1x1000000_0_0 : S4x1000000.Slices ![0, 0] S1x1000000
  shapeCasts_S1x1000000_S1000000 : S1x1000000.ShapeCasts S1000000
  slices_S4x1000000_S1x1000000_1_0 : S4x1000000.Slices ![1, 0] S1x1000000
  slices_S4x1000000_S1x1000000_2_0 : S4x1000000.Slices ![2, 0] S1x1000000
  slices_S4x1000000_S1x1000000_3_0 : S4x1000000.Slices ![3, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  concatenates_S1000000x128_S1000000x128_S1000000x3_S1000000x259_d1 : Shape.Concatenates [S1000000x128, S1000000x128, S1000000x3] S1000000x259 1
  shapeCasts_S64_S1x64 : S64.ShapeCasts S1x64
  shapeCasts_S128_S1x128 : S128.ShapeCasts S1x128
  inb_S5000x259_S5000x259_0_0 : ∀ a, (![0, 0] : Fin 2 → Nat) a + S5000x259.size a ≤ S5000x259.size a
  h_S5000x259 : 0 < S5000x259.numel
  shapeCasts_S5000x259_S5000x259 : S5000x259.ShapeCasts S5000x259
  bitsLt_bf16_f32 : FTy.bits .bf16 < FTy.bits .f32
  inb_S259x64_S259x64_0_0 : ∀ a, (![0, 0] : Fin 2 → Nat) a + S259x64.size a ≤ S259x64.size a
  h_S259x64 : 0 < S259x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  gather_S100000x128_S1000000x1_S1000000x128_1_0_n_n_0_1_1128_wf : GatherDims.WF S100000x128 S1000000x1 S1000000x128 [1] [0] [] [0] [] 1 ![1, 128]
  dot_S5000x259_S259x64_S5000x64_1_0_0_1_n_n_wf : DotDims.WF S5000x259 S259x64 S5000x64 [1] [0] [0] [1] [] []
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x259.size a ≤ S1000000x259.size a
  hwx0_0 : ∀ i : grid0.Coords, EltTy.bits .f32 = 32 ∨ (Rect.block (s := S1000000x259) S5000x259.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S259x64.size a ≤ S259x64.size a
  hwx0_1 : ∀ i : grid0.Coords, EltTy.bits .f32 = 32 ∨ (Rect.block (s := S259x64) S259x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S1000000x128.size a
  hwx0_7 : ∀ i : grid0.Coords, EltTy.bits .f32 = 32 ∨ (Rect.block (s := S1000000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S5000x259_S259x64_S5000x64_1_0_0_1_n_n : DotDims S5000x259 S259x64 S5000x64 where
  lhsContracting := [1]
  rhsContracting := [0]
  lhsNonContracting := [0]
  rhsNonContracting := [1]
  lhsBatch := []
  rhsBatch := []
  wf := dot_S5000x259_S259x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v10) S5000x259.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S259x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S4x1000000 : Shape := ⟨2, ![4, 1000000]⟩
abbrev S1000000x3 : Shape := ⟨2, ![1000000, 3]⟩
abbrev S259x64 : Shape := ⟨2, ![259, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x259 : Shape := ⟨2, ![1000000, 259]⟩
abbrev S1000000x64 : Shape := ⟨2, ![1000000, 64]⟩
abbrev S1x64 : Shape := ⟨2, ![1, 64]⟩
abbrev S1x128 : Shape := ⟨2, ![1, 128]⟩
abbrev S100000 : Shape := ⟨1, ![100000]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4x1000000, .i32⟩
  | .hbm, ⟨2, _⟩ => ⟨S1000000x3, .f32⟩
  | .hbm, ⟨3, _⟩ => ⟨S259x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x128, .f32⟩
  | .hbm, ⟨36, _⟩ => ⟨S1000000x259, .f32⟩
  | .hbm, ⟨37, _⟩ => ⟨S1000000x64, .f32⟩
  | .hbm, ⟨38, _⟩ => ⟨S1x64, .f32⟩
  | .hbm, ⟨39, _⟩ => ⟨S1000000x64, .f32⟩
  | .hbm, ⟨40, _⟩ => ⟨S1000000x64, .f32⟩
  | .hbm, ⟨41, _⟩ => ⟨S1000000x64, .f32⟩
  | .hbm, ⟨42, _⟩ => ⟨S1000000x64, .f32⟩
  | .hbm, ⟨43, _⟩ => ⟨S_, .f32⟩
  | .hbm, ⟨44, _⟩ => ⟨S1000000x64, .f32⟩
  | .hbm, ⟨45, _⟩ => ⟨S1000000x64, .f32⟩
  | .hbm, ⟨46, _⟩ => ⟨S_, .f32⟩
  | .hbm, ⟨47, _⟩ => ⟨S1000000x64, .f32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S1x64, .f32⟩
  | .hbm, ⟨52, _⟩ => ⟨S1000000x64, .f32⟩
  | .hbm, ⟨53, _⟩ => ⟨S1000000x64, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S1000000x64, .f32⟩
  | .hbm, ⟨61, _⟩ => ⟨S1000000x64, .f32⟩
  | .hbm, ⟨62, _⟩ => ⟨S1000000x64, .f32⟩
  | .hbm, ⟨63, _⟩ => ⟨S1000000x128, .f32⟩
  | .hbm, ⟨64, _⟩ => ⟨S1x128, .f32⟩
  | .hbm, ⟨65, _⟩ => ⟨S1000000x128, .f32⟩
  | .hbm, ⟨66, _⟩ => ⟨S1000000x128, .f32⟩
  | .hbm, ⟨67, _⟩ => ⟨S_, .f32⟩
  | .hbm, ⟨68, _⟩ => ⟨S100000x128, .f32⟩
  | .hbm, ⟨69, _⟩ => ⟨S1000000x1, .i32⟩
  | .hbm, ⟨70, _⟩ => ⟨S100000x128, .f32⟩
  | .hbm, ⟨71, _⟩ => ⟨S_, .f32⟩
  | .hbm, ⟨72, _⟩ => ⟨S1000000, .f32⟩
  | .hbm, ⟨73, _⟩ => ⟨S_, .f32⟩
  | .hbm, ⟨74, _⟩ => ⟨S100000, .f32⟩
  | .hbm, ⟨75, _⟩ => ⟨S1000000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S1000000x1, .i32⟩
  | .hbm, ⟨86, _⟩ => ⟨S100000x128, .f32⟩
  | .hbm, ⟨87, _⟩ => ⟨S_, .f32⟩
  | .hbm, ⟨88, _⟩ => ⟨S1000000, .f32⟩
  | .hbm, ⟨89, _⟩ => ⟨S_, .f32⟩
  | .hbm, ⟨90, _⟩ => ⟨S100000, .f32⟩
  | .hbm, ⟨91, _⟩ => ⟨S1000000x1, .i32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_3 : Ref sig .tc := ⟨.hbm, 71, rfl⟩
abbrev main_v40 : Ref sig .tc := ⟨.hbm, 72, rfl⟩
abbrev main_cst_4 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_6 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_7 : Ref sig .tc := ⟨.hbm, 87, rfl⟩
abbrev main_v52 : Ref sig .tc := ⟨.hbm, 88, rfl⟩
abbrev main_cst_8 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_9 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_10 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩

abbrev nD : Nat := 1
abbrev τ : Topo := Topo.v7x

variable {F : FTy → Type} [FloatOps F]

class Facts₀ : Prop where
  slices_S4x1000000_S1x1000000_0_0 : S4x1000000.Slices ![0, 0] S1x1000000
  shapeCasts_S1x1000000_S1000000 : S1x1000000.ShapeCasts S1000000
  slices_S4x1000000_S1x1000000_1_0 : S4x1000000.Slices ![1, 0] S1x1000000
  slices_S4x1000000_S1x1000000_2_0 : S4x1000000.Slices ![2, 0] S1x1000000
  slices_S4x1000000_S1x1000000_3_0 : S4x1000000.Slices ![3, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x3_S1000000x259_d1 : Shape.Concatenates [S1000000x128, S1000000x128, S1000000x3] S1000000x259 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  dot_S1000000x259_S259x64_S1000000x64_1_0_0_1_n_n_wf : DotDims.WF S1000000x259 S259x64 S1000000x64 [1] [0] [0] [1] [] []
  dot_S1000000x64_S64x64_S1000000x64_1_0_0_1_n_n_wf : DotDims.WF S1000000x64 S64x64 S1000000x64 [1] [0] [0] [1] [] []
  dot_S1000000x64_S64x128_S1000000x128_1_0_0_1_n_n_wf : DotDims.WF S1000000x64 S64x128 S1000000x128 [1] [0] [0] [1] [] []
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x259_S259x64_S1000000x64_1_0_0_1_n_n : DotDims S1000000x259 S259x64 S1000000x64 where
  lhsContracting := [1]
  rhsContracting := [0]
  lhsNonContracting := [0]
  rhsNonContracting := [1]
  lhsBatch := []
  rhsBatch := []
  wf := dot_S1000000x259_S259x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BitsRegion0.lean ====
/-
  The first kernel region (the three-layer perceptron over 200 row blocks of 5000 gathered rows), entered with the
  TensorCore's buffers at contents `V`: what each window's block is at a grid point, what the body leaves in the
  output window's buffer (one whole-block store of the perceptron's value on the seven input blocks), the body's
  triple, the pipeline's proof data and the body obligation at every point.
-/
import proofs.«427996_j34093450396331_1_alg».proof.Proof.Gen.Kernel.Launch
import proofs.«427996_j34093450396331_1_alg».proof.Proof.Gen.Kernel.Skeleton
import proofs.«427996_j34093450396331_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store go through the whole-buffer rectangle of their shape -/

abbrev rX : Rect S5000x259 := Rect.unit (s := S5000x259) ![0, 0] S5000x259.size inb_S5000x259_S5000x259_0_0
abbrev rW1 : Rect S259x64 := Rect.unit (s := S259x64) ![0, 0] S259x64.size inb_S259x64_S259x64_0_0
abbrev rB64 : Rect S1x64 := Rect.unit (s := S1x64) ![0, 0] S1x64.size inb_S1x64_S1x64_0_0
abbrev rW2 : Rect S64x64 := Rect.unit (s := S64x64) ![0, 0] S64x64.size inb_S64x64_S64x64_0_0
abbrev rW3 : Rect S64x128 := Rect.unit (s := S64x128) ![0, 0] S64x128.size inb_S64x128_S64x128_0_0
abbrev rB128 : Rect S1x128 := Rect.unit (s := S1x128) ![0, 0] S1x128.size inb_S1x128_S1x128_0_0
abbrev rO : Rect S5000x128 := Rect.unit (s := S5000x128) ![0, 0] S5000x128.size inb_S5000x128_S5000x128_0_0

/-- The output window's staging buffer after the body, from the seven input blocks: its one store. -/
def out0_7 (x0 : Vec F S5000x259 .f32) (x1 : Vec F S259x64 .f32) (x2 : Vec F S1x64 .f32) (x3 : Vec F S64x64 .f32)
    (x4 : Vec F S1x64 .f32) (x5 : Vec F S64x128 .f32) (x6 : Vec F S1x128 .f32) : Vec F S5000x128 .f32 :=
  View.canon [⟨rO, k0_pay1 (View.ld x0 rX) (View.ld x1 rW1) (View.ld x2 rB64) (View.ld x3 rW2) (View.ld x4 rB64) (View.ld x5 rW3) (View.ld x6 rB128)⟩]

/-- The one store covers the buffer. -/
theorem cover0_7 (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

set_option maxHeartbeats 4000000 in
/-- The kernel body on whole staging memrefs, the inputs' at read contents `x0 … x6` and the output's at anything, runs
    to the continuation holding the inputs' as they were and the output's at `out0_7` of the inputs'. -/
theorem sound_kernel0 (c : Dev nD) (E : Set ℕ) (i : grid0.Coords)
    (arg1 : Memref sig .tc .vmem S5000x259 .f32) (harg1 : arg1.IsWhole) (arg2 : Memref sig .tc .vmem S259x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x259 .f32) (x1 : Vec F S259x64 .f32) (x2 : Vec F S1x64 .f32) (x3 : Vec F S64x64 .f32)
    (x4 : Vec F S1x64 .f32) (x5 : Vec F S64x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the first pipeline on core `c`: the arrays as the region finds them; after the body at point `t`
    each input's buffer at its block and the output's at `out0_7` of the input blocks; the class invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by dsimp only [dat0]

/-- Each input window's current staging buffer holds its block at every point, fetched there or not: a window whose
    block index does not move is fetched once and keeps its block, and the body leaves every input block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsRegion1.lean ====
/-
  The second kernel region (half the sum of the two aggregated arrays, times the output weights, over 50 row blocks of
  2000 node rows), entered with the TensorCore's buffers at contents `V`: each window's block at a grid point, what the
  body leaves in the output window's buffer (one whole-block store), the body's triple, the pipeline's proof data and
  the body obligation at every point.
-/
import proofs.«427996_j34093450396331_1_alg».proof.Proof.Gen.Kernel.Launch
import proofs.«427996_j34093450396331_1_alg».proof.Proof.Gen.Kernel.Skeleton
import proofs.«427996_j34093450396331_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: whole-buffer rectangles -/

abbrev rA : Rect S2000x128 := Rect.unit (s := S2000x128) ![0, 0] S2000x128.size inb_S2000x128_S2000x128_0_0
abbrev rWo : Rect S128x128 := Rect.unit (s := S128x128) ![0, 0] S128x128.size inb_S128x128_S128x128_0_0

/-- The output window's staging buffer after the body, from the three input blocks: its one store. -/
def out1_3 (x0 : Vec F S2000x128 .f32) (x1 : Vec F S2000x128 .f32) (x2 : Vec F S128x128 .f32) : Vec F S2000x128 .f32 :=
  View.canon [⟨rA, k1_pay1 (View.ld x0 rA) (View.ld x1 rA) (View.ld x2 rWo)⟩]

/-- The one store covers the buffer. -/
theorem cover1_3 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 4000000 in
/-- The kernel body on whole staging memrefs, the inputs' at read contents and the output's at anything, runs to the
    continuation holding the inputs' as they were and the output's at `out1_3` of the inputs'. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pipeline on core `c`: the arrays as the region finds them; after the body at point
    `t` each input's buffer at its block and the output's at `out1_3` of the input blocks; the class invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t =
    out1_3 (iblk1 V c 0 t) (iblk1 V c 1 t) (iblk1 V c 2 t) := by dsimp only [dat1]

/-- Each input window's current staging buffer holds its block at every point, fetched there or not: a window whose
    block index does not move is fetched once and keeps its block, and the body leaves every input block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BitsRun.lean ====
/-
  The run of the whole program: the contents of the TensorCore's unscoped buffers at every boundary between two items
  of @main, as a fold from the launch memory (a stretch of host operations applies them; a kernel region leaves its
  output array at what its blocks' write-backs assemble and every other buffer as it found it); the two regions as
  segments over the thread state "every unscoped buffer at the boundary's contents, the generator register at some
  state, nothing owed"; and the run itself: every weakly fair execution of @main terminates, nothing faulting, with
  every unscoped buffer at the last boundary's contents. The frame (each argument array ends as launched) and the
  result array's contents are read off that.
-/
import proofs.«427996_j34093450396331_1_alg».proof.Proof.BitsRegion0
import proofs.«427996_j34093450396331_1_alg».proof.Proof.BitsRegion1
import proofs.«427996_j34093450396331_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the index rows are sliced out. -/
abbrev W1 : Dev nD → Valuation τ sig (Elt F) := fun c => StableHlo.after hostOps0 (W0 m ρ c)
/-- After the first gather of node rows. -/
abbrev W2 : Dev nD → Valuation τ sig (Elt F) := fun c => StableHlo.after hostOps0_1 (W1 m ρ c)
/-- After the second gather of node rows. -/
abbrev W3 : Dev nD → Valuation τ sig (Elt F) := fun c => StableHlo.after hostOps0_2 (W2 m ρ c)
/-- After the concatenation and the biases' reshapes: the first region's entry. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b
/-- At the first region's exit: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After the two scatter-means: the second region's entry. -/
abbrev W6 : Dev nD → Valuation τ sig (Elt F) := fun c => StableHlo.after hostOps1 (W5 m ρ c)
abbrev V6 : (c : Dev nD) → (b : Ref sig .tc) → Buf (Elt F) ((c : Thread nD τ).loc b) := fun c b => W6 m ρ c b
/-- At the second region's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## The arguments end as launched: no host operation writes one, and a region only reads one through an input window -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_writes_sub hostOps1 _ hostOps1_writes (r := main_arg0) (by decide)
    _ = W4 m ρ c (Proc.devRef .tc main_arg0) := W5_of_ne m ρ c main_arg0 (by decide)
    _ = W3 m ρ c (Proc.devRef .tc main_arg0) := StableHlo.after_of_writes_sub hostOps0_3 _ hostOps0_3_writes (r := main_arg0) (by decide)
    _ = W2 m ρ c (Proc.devRef .tc main_arg0) := StableHlo.after_of_writes_sub hostOps0_2 _ hostOps0_2_writes (r := main_arg0) (by decide)
    _ = W1 m ρ c (Proc.devRef .tc main_arg0) := StableHlo.after_of_writes_sub hostOps0_1 _ hostOps0_1_writes (r := main_arg0) (by decide)
    _ = W0 m ρ c (Proc.devRef .tc main_arg0) := StableHlo.after_of_writes_sub hostOps0 _ hostOps0_writes (r := main_arg0) (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_writes_sub hostOps1 _ hostOps1_writes (r := main_arg1) (by decide)
    _ = W4 m ρ c (Proc.devRef .tc main_arg1) := W5_of_ne m ρ c main_arg1 (by decide)
    _ = W3 m ρ c (Proc.devRef .tc main_arg1) := StableHlo.after_of_writes_sub hostOps0_3 _ hostOps0_3_writes (r := main_arg1) (by decide)
    _ = W2 m ρ c (Proc.devRef .tc main_arg1) := StableHlo.after_of_writes_sub hostOps0_2 _ hostOps0_2_writes (r := main_arg1) (by decide)
    _ = W1 m ρ c (Proc.devRef .tc main_arg1) := StableHlo.after_of_writes_sub hostOps0_1 _ hostOps0_1_writes (r := main_arg1) (by decide)
    _ = W0 m ρ c (Proc.devRef .tc main_arg1) := StableHlo.after_of_writes_sub hostOps0 _ hostOps0_writes (r := main_arg1) (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_writes_sub hostOps1 _ hostOps1_writes (r := main_arg2) (by decide)
    _ = W4 m ρ c (Proc.devRef .tc main_arg2) := W5_of_ne m ρ c main_arg2 (by decide)
    _ = W3 m ρ c (Proc.devRef .tc main_arg2) := StableHlo.after_of_writes_sub hostOps0_3 _ hostOps0_3_writes (r := main_arg2) (by decide)
    _ = W2 m ρ c (Proc.devRef .tc main_arg2) := StableHlo.after_of_writes_sub hostOps0_2 _ hostOps0_2_writes (r := main_arg2) (by decide)
    _ = W1 m ρ c (Proc.devRef .tc main_arg2) := StableHlo.after_of_writes_sub hostOps0_1 _ hostOps0_1_writes (r := main_arg2) (by decide)
    _ = W0 m ρ c (Proc.devRef .tc main_arg2) := StableHlo.after_of_writes_sub hostOps0 _ hostOps0_writes (r := main_arg2) (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_writes_sub hostOps1 _ hostOps1_writes (r := main_arg3) (by decide)
    _ = W4 m ρ c (Proc.devRef .tc main_arg3) := (W5_arr m ρ c 1).trans (((dat0 (V4 m ρ) c).arrAt_in 1 rfl _).trans (A_eq0 (V4 m ρ) c 1))
    _ = W3 m ρ c (Proc.devRef .tc main_arg3) := StableHlo.after_of_writes_sub hostOps0_3 _ hostOps0_3_writes (r := main_arg3) (by decide)
    _ = W2 m ρ c (Proc.devRef .tc main_arg3) := StableHlo.after_of_writes_sub hostOps0_2 _ hostOps0_2_writes (r := main_arg3) (by decide)
    _ = W1 m ρ c (Proc.devRef .tc main_arg3) := StableHlo.after_of_writes_sub hostOps0_1 _ hostOps0_1_writes (r := main_arg3) (by decide)
    _ = W0 m ρ c (Proc.devRef .tc main_arg3) := StableHlo.after_of_writes_sub hostOps0 _ hostOps0_writes (r := main_arg3) (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_writes_sub hostOps1 _ hostOps1_writes (r := main_arg4) (by decide)
    _ = W4 m ρ c (Proc.devRef .tc main_arg4) := W5_of_ne m ρ c main_arg4 (by decide)
    _ = W3 m ρ c (Proc.devRef .tc main_arg4) := StableHlo.after_of_writes_sub hostOps0_3 _ hostOps0_3_writes (r := main_arg4) (by decide)
    _ = W2 m ρ c (Proc.devRef .tc main_arg4) := StableHlo.after_of_writes_sub hostOps0_2 _ hostOps0_2_writes (r := main_arg4) (by decide)
    _ = W1 m ρ c (Proc.devRef .tc main_arg4) := StableHlo.after_of_writes_sub hostOps0_1 _ hostOps0_1_writes (r := main_arg4) (by decide)
    _ = W0 m ρ c (Proc.devRef .tc main_arg4) := StableHlo.after_of_writes_sub hostOps0 _ hostOps0_writes (r := main_arg4) (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_writes_sub hostOps1 _ hostOps1_writes (r := main_arg5) (by decide)
    _ = W4 m ρ c (Proc.devRef .tc main_arg5) := (W5_arr m ρ c 3).trans (((dat0 (V4 m ρ) c).arrAt_in 3 rfl _).trans (A_eq0 (V4 m ρ) c 3))
    _ = W3 m ρ c (Proc.devRef .tc main_arg5) := StableHlo.after_of_writes_sub hostOps0_3 _ hostOps0_3_writes (r := main_arg5) (by decide)
    _ = W2 m ρ c (Proc.devRef .tc main_arg5) := StableHlo.after_of_writes_sub hostOps0_2 _ hostOps0_2_writes (r := main_arg5) (by decide)
    _ = W1 m ρ c (Proc.devRef .tc main_arg5) := StableHlo.after_of_writes_sub hostOps0_1 _ hostOps0_1_writes (r := main_arg5) (by decide)
    _ = W0 m ρ c (Proc.devRef .tc main_arg5) := StableHlo.after_of_writes_sub hostOps0 _ hostOps0_writes (r := main_arg5) (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_writes_sub hostOps1 _ hostOps1_writes (r := main_arg6) (by decide)
    _ = W4 m ρ c (Proc.devRef .tc main_arg6) := W5_of_ne m ρ c main_arg6 (by decide)
    _ = W3 m ρ c (Proc.devRef .tc main_arg6) := StableHlo.after_of_writes_sub hostOps0_3 _ hostOps0_3_writes (r := main_arg6) (by decide)
    _ = W2 m ρ c (Proc.devRef .tc main_arg6) := StableHlo.after_of_writes_sub hostOps0_2 _ hostOps0_2_writes (r := main_arg6) (by decide)
    _ = W1 m ρ c (Proc.devRef .tc main_arg6) := StableHlo.after_of_writes_sub hostOps0_1 _ hostOps0_1_writes (r := main_arg6) (by decide)
    _ = W0 m ρ c (Proc.devRef .tc main_arg6) := StableHlo.after_of_writes_sub hostOps0 _ hostOps0_writes (r := main_arg6) (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_writes_sub hostOps1 _ hostOps1_writes (r := main_arg7) (by decide)
    _ = W4 m ρ c (Proc.devRef .tc main_arg7) := (W5_arr m ρ c 5).trans (((dat0 (V4 m ρ) c).arrAt_in 5 rfl _).trans (A_eq0 (V4 m ρ) c 5))
    _ = W3 m ρ c (Proc.devRef .tc main_arg7) := StableHlo.after_of_writes_sub hostOps0_3 _ hostOps0_3_writes (r := main_arg7) (by decide)
    _ = W2 m ρ c (Proc.devRef .tc main_arg7) := StableHlo.after_of_writes_sub hostOps0_2 _ hostOps0_2_writes (r := main_arg7) (by decide)
    _ = W1 m ρ c (Proc.devRef .tc main_arg7) := StableHlo.after_of_writes_sub hostOps0_1 _ hostOps0_1_writes (r := main_arg7) (by decide)
    _ = W0 m ρ c (Proc.devRef .tc main_arg7) := StableHlo.after_of_writes_sub hostOps0 _ hostOps0_writes (r := main_arg7) (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_writes_sub hostOps1 _ hostOps1_writes (r := main_arg8) (by decide)
    _ = W4 m ρ c (Proc.devRef .tc main_arg8) := W5_of_ne m ρ c main_arg8 (by decide)
    _ = W3 m ρ c (Proc.devRef .tc main_arg8) := StableHlo.after_of_writes_sub hostOps0_3 _ hostOps0_3_writes (r := main_arg8) (by decide)
    _ = W2 m ρ c (Proc.devRef .tc main_arg8) := StableHlo.after_of_writes_sub hostOps0_2 _ hostOps0_2_writes (r := main_arg8) (by decide)
    _ = W1 m ρ c (Proc.devRef .tc main_arg8) := StableHlo.after_of_writes_sub hostOps0_1 _ hostOps0_1_writes (r := main_arg8) (by decide)
    _ = W0 m ρ c (Proc.devRef .tc main_arg8) := StableHlo.after_of_writes_sub hostOps0 _ hostOps0_writes (r := main_arg8) (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := (W7_arr m ρ c 2).trans (((dat1 (V6 m ρ) c).arrAt_in 2 rfl _).trans (A_eq1 (V6 m ρ) c 2))
    _ = W5 m ρ c (Proc.devRef .tc main_arg9) := StableHlo.after_of_writes_sub hostOps1 _ hostOps1_writes (r := main_arg9) (by decide)
    _ = W4 m ρ c (Proc.devRef .tc main_arg9) := W5_of_ne m ρ c main_arg9 (by decide)
    _ = W3 m ρ c (Proc.devRef .tc main_arg9) := StableHlo.after_of_writes_sub hostOps0_3 _ hostOps0_3_writes (r := main_arg9) (by decide)
    _ = W2 m ρ c (Proc.devRef .tc main_arg9) := StableHlo.after_of_writes_sub hostOps0_2 _ hostOps0_2_writes (r := main_arg9) (by decide)
    _ = W1 m ρ c (Proc.devRef .tc main_arg9) := StableHlo.after_of_writes_sub hostOps0_1 _ hostOps0_1_writes (r := main_arg9) (by decide)
    _ = W0 m ρ c (Proc.devRef .tc main_arg9) := StableHlo.after_of_writes_sub hostOps0 _ hostOps0_writes (r := main_arg9) (by decide)
    _ = m ((c : Thread nD τ).loc main_arg9) := rfl

/-- The result array at the end is what the second region's write-backs assemble. -/
theorem W7_main_v39 (c : Dev nD) : W7 m ρ c (Proc.devRef .tc main_v39) = (dat1 (V6 m ρ) c).arrAt 3 cfg1.N :=
  W7_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W4`, left at `W5`. Its arrays are split
    out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ) ]

/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters every weakly fair execution of @main on the TensorCore terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched; and the result array ends at what the second region's
    write-backs assemble. -/
theorem run_frame_result : θ_run defs (onTc (τ := τ) (main (F := F))) ⟨m, fun _ => 0, ρ⟩ (fun r => ∀ c : Dev nD,
      r.2.mem ((c.tc : Thread nD τ).loc main_v39) = (dat1 (V6 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v39 (by decide))).trans (W7_main_v39 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c)⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_frame_result m ρ)

end Cert.Kernel.Fr

end
-- ==== Proof.IdealRegion0.lean ====
/-
  The first kernel region (the three-layer perceptron over 200 row blocks of 5000 gathered rows), entered with the
  TensorCore's buffers at contents `V`: what each window's block is at a grid point, what the body leaves in the
  output window's buffer (one whole-block store of the perceptron's value on the seven input blocks), the body's
  triple, the pipeline's proof data and the body obligation at every point.
-/
import proofs.«427996_j34093450396331_1_alg».proof.Proof.Gen.KernelIdeal.Launch
import proofs.«427996_j34093450396331_1_alg».proof.Proof.Gen.KernelIdeal.Skeleton
import proofs.«427996_j34093450396331_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store go through the whole-buffer rectangle of their shape -/

abbrev rX : Rect S5000x259 := Rect.unit (s := S5000x259) ![0, 0] S5000x259.size inb_S5000x259_S5000x259_0_0
abbrev rW1 : Rect S259x64 := Rect.unit (s := S259x64) ![0, 0] S259x64.size inb_S259x64_S259x64_0_0
abbrev rB64 : Rect S1x64 := Rect.unit (s := S1x64) ![0, 0] S1x64.size inb_S1x64_S1x64_0_0
abbrev rW2 : Rect S64x64 := Rect.unit (s := S64x64) ![0, 0] S64x64.size inb_S64x64_S64x64_0_0
abbrev rW3 : Rect S64x128 := Rect.unit (s := S64x128) ![0, 0] S64x128.size inb_S64x128_S64x128_0_0
abbrev rB128 : Rect S1x128 := Rect.unit (s := S1x128) ![0, 0] S1x128.size inb_S1x128_S1x128_0_0
abbrev rO : Rect S5000x128 := Rect.unit (s := S5000x128) ![0, 0] S5000x128.size inb_S5000x128_S5000x128_0_0

/-- The output window's staging buffer after the body, from the seven input blocks: its one store. -/
def out0_7 (x0 : Vec F S5000x259 .f32) (x1 : Vec F S259x64 .f32) (x2 : Vec F S1x64 .f32) (x3 : Vec F S64x64 .f32)
    (x4 : Vec F S1x64 .f32) (x5 : Vec F S64x128 .f32) (x6 : Vec F S1x128 .f32) : Vec F S5000x128 .f32 :=
  View.canon [⟨rO, k0_pay1 (View.ld x0 rX) (View.ld x1 rW1) (View.ld x2 rB64) (View.ld x3 rW2) (View.ld x4 rB64) (View.ld x5 rW3) (View.ld x6 rB128)⟩]

/-- The one store covers the buffer. -/
theorem cover0_7 (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

set_option maxHeartbeats 4000000 in
/-- The kernel body on whole staging memrefs, the inputs' at read contents `x0 … x6` and the output's at anything, runs
    to the continuation holding the inputs' as they were and the output's at `out0_7` of the inputs'. -/
theorem sound_kernel0 (c : Dev nD) (E : Set ℕ) (i : grid0.Coords)
    (arg1 : Memref sig .tc .vmem S5000x259 .f32) (harg1 : arg1.IsWhole) (arg2 : Memref sig .tc .vmem S259x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x259 .f32) (x1 : Vec F S259x64 .f32) (x2 : Vec F S1x64 .f32) (x3 : Vec F S64x64 .f32)
    (x4 : Vec F S1x64 .f32) (x5 : Vec F S64x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the first pipeline on core `c`: the arrays as the region finds them; after the body at point `t`
    each input's buffer at its block and the output's at `out0_7` of the input blocks; the class invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by dsimp only [dat0]

/-- Each input window's current staging buffer holds its block at every point, fetched there or not: a window whose
    block index does not move is fetched once and keeps its block, and the body leaves every input block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IdealRegion1.lean ====
/-
  The second kernel region (half the sum of the two aggregated arrays, times the output weights, over 50 row blocks of
  2000 node rows), entered with the TensorCore's buffers at contents `V`: each window's block at a grid point, what the
  body leaves in the output window's buffer (one whole-block store), the body's triple, the pipeline's proof data and
  the body obligation at every point.
-/
import proofs.«427996_j34093450396331_1_alg».proof.Proof.Gen.KernelIdeal.Launch
import proofs.«427996_j34093450396331_1_alg».proof.Proof.Gen.KernelIdeal.Skeleton
import proofs.«427996_j34093450396331_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: whole-buffer rectangles -/

abbrev rA : Rect S2000x128 := Rect.unit (s := S2000x128) ![0, 0] S2000x128.size inb_S2000x128_S2000x128_0_0
abbrev rWo : Rect S128x128 := Rect.unit (s := S128x128) ![0, 0] S128x128.size inb_S128x128_S128x128_0_0

/-- The output window's staging buffer after the body, from the three input blocks: its one store. -/
def out1_3 (x0 : Vec F S2000x128 .f32) (x1 : Vec F S2000x128 .f32) (x2 : Vec F S128x128 .f32) : Vec F S2000x128 .f32 :=
  View.canon [⟨rA, k1_pay1 (View.ld x0 rA) (View.ld x1 rA) (View.ld x2 rWo)⟩]

/-- The one store covers the buffer. -/
theorem cover1_3 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 4000000 in
/-- The kernel body on whole staging memrefs, the inputs' at read contents and the output's at anything, runs to the
    continuation holding the inputs' as they were and the output's at `out1_3` of the inputs'. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pipeline on core `c`: the arrays as the region finds them; after the body at point
    `t` each input's buffer at its block and the output's at `out1_3` of the input blocks; the class invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t =
    out1_3 (iblk1 V c 0 t) (iblk1 V c 1 t) (iblk1 V c 2 t) := by dsimp only [dat1]

/-- Each input window's current staging buffer holds its block at every point, fetched there or not: a window whose
    block index does not move is fetched once and keeps its block, and the body leaves every input block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IdealRun.lean ====
/-
  The run of the whole program: the contents of the TensorCore's unscoped buffers at every boundary between two items
  of @main, as a fold from the launch memory (a stretch of host operations applies them; a kernel region leaves its
  output array at what its blocks' write-backs assemble and every other buffer as it found it); the two regions as
  segments over the thread state "every unscoped buffer at the boundary's contents, the generator register at some
  state, nothing owed"; and the run itself: every weakly fair execution of @main terminates, nothing faulting, with
  every unscoped buffer at the last boundary's contents. The frame (each argument array ends as launched) and the
  result array's contents are read off that.
-/
import proofs.«427996_j34093450396331_1_alg».proof.Proof.IdealRegion0
import proofs.«427996_j34093450396331_1_alg».proof.Proof.IdealRegion1
import proofs.«427996_j34093450396331_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the index rows are sliced out. -/
abbrev W1 : Dev nD → Valuation τ sig (Elt F) := fun c => StableHlo.after hostOps0 (W0 m ρ c)
/-- After the first gather of node rows. -/
abbrev W2 : Dev nD → Valuation τ sig (Elt F) := fun c => StableHlo.after hostOps0_1 (W1 m ρ c)
/-- After the second gather of node rows. -/
abbrev W3 : Dev nD → Valuation τ sig (Elt F) := fun c => StableHlo.after hostOps0_2 (W2 m ρ c)
/-- After the concatenation and the biases' reshapes: the first region's entry. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b
/-- At the first region's exit: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After the two scatter-means: the second region's entry. -/
abbrev W6 : Dev nD → Valuation τ sig (Elt F) := fun c => StableHlo.after hostOps1 (W5 m ρ c)
abbrev V6 : (c : Dev nD) → (b : Ref sig .tc) → Buf (Elt F) ((c : Thread nD τ).loc b) := fun c b => W6 m ρ c b
/-- At the second region's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## The arguments end as launched: no host operation writes one, and a region only reads one through an input window -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_writes_sub hostOps1 _ hostOps1_writes (r := main_arg0) (by decide)
    _ = W4 m ρ c (Proc.devRef .tc main_arg0) := W5_of_ne m ρ c main_arg0 (by decide)
    _ = W3 m ρ c (Proc.devRef .tc main_arg0) := StableHlo.after_of_writes_sub hostOps0_3 _ hostOps0_3_writes (r := main_arg0) (by decide)
    _ = W2 m ρ c (Proc.devRef .tc main_arg0) := StableHlo.after_of_writes_sub hostOps0_2 _ hostOps0_2_writes (r := main_arg0) (by decide)
    _ = W1 m ρ c (Proc.devRef .tc main_arg0) := StableHlo.after_of_writes_sub hostOps0_1 _ hostOps0_1_writes (r := main_arg0) (by decide)
    _ = W0 m ρ c (Proc.devRef .tc main_arg0) := StableHlo.after_of_writes_sub hostOps0 _ hostOps0_writes (r := main_arg0) (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_writes_sub hostOps1 _ hostOps1_writes (r := main_arg1) (by decide)
    _ = W4 m ρ c (Proc.devRef .tc main_arg1) := W5_of_ne m ρ c main_arg1 (by decide)
    _ = W3 m ρ c (Proc.devRef .tc main_arg1) := StableHlo.after_of_writes_sub hostOps0_3 _ hostOps0_3_writes (r := main_arg1) (by decide)
    _ = W2 m ρ c (Proc.devRef .tc main_arg1) := StableHlo.after_of_writes_sub hostOps0_2 _ hostOps0_2_writes (r := main_arg1) (by decide)
    _ = W1 m ρ c (Proc.devRef .tc main_arg1) := StableHlo.after_of_writes_sub hostOps0_1 _ hostOps0_1_writes (r := main_arg1) (by decide)
    _ = W0 m ρ c (Proc.devRef .tc main_arg1) := StableHlo.after_of_writes_sub hostOps0 _ hostOps0_writes (r := main_arg1) (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_writes_sub hostOps1 _ hostOps1_writes (r := main_arg2) (by decide)
    _ = W4 m ρ c (Proc.devRef .tc main_arg2) := W5_of_ne m ρ c main_arg2 (by decide)
    _ = W3 m ρ c (Proc.devRef .tc main_arg2) := StableHlo.after_of_writes_sub hostOps0_3 _ hostOps0_3_writes (r := main_arg2) (by decide)
    _ = W2 m ρ c (Proc.devRef .tc main_arg2) := StableHlo.after_of_writes_sub hostOps0_2 _ hostOps0_2_writes (r := main_arg2) (by decide)
    _ = W1 m ρ c (Proc.devRef .tc main_arg2) := StableHlo.after_of_writes_sub hostOps0_1 _ hostOps0_1_writes (r := main_arg2) (by decide)
    _ = W0 m ρ c (Proc.devRef .tc main_arg2) := StableHlo.after_of_writes_sub hostOps0 _ hostOps0_writes (r := main_arg2) (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_writes_sub hostOps1 _ hostOps1_writes (r := main_arg3) (by decide)
    _ = W4 m ρ c (Proc.devRef .tc main_arg3) := (W5_arr m ρ c 1).trans (((dat0 (V4 m ρ) c).arrAt_in 1 rfl _).trans (A_eq0 (V4 m ρ) c 1))
    _ = W3 m ρ c (Proc.devRef .tc main_arg3) := StableHlo.after_of_writes_sub hostOps0_3 _ hostOps0_3_writes (r := main_arg3) (by decide)
    _ = W2 m ρ c (Proc.devRef .tc main_arg3) := StableHlo.after_of_writes_sub hostOps0_2 _ hostOps0_2_writes (r := main_arg3) (by decide)
    _ = W1 m ρ c (Proc.devRef .tc main_arg3) := StableHlo.after_of_writes_sub hostOps0_1 _ hostOps0_1_writes (r := main_arg3) (by decide)
    _ = W0 m ρ c (Proc.devRef .tc main_arg3) := StableHlo.after_of_writes_sub hostOps0 _ hostOps0_writes (r := main_arg3) (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_writes_sub hostOps1 _ hostOps1_writes (r := main_arg4) (by decide)
    _ = W4 m ρ c (Proc.devRef .tc main_arg4) := W5_of_ne m ρ c main_arg4 (by decide)
    _ = W3 m ρ c (Proc.devRef .tc main_arg4) := StableHlo.after_of_writes_sub hostOps0_3 _ hostOps0_3_writes (r := main_arg4) (by decide)
    _ = W2 m ρ c (Proc.devRef .tc main_arg4) := StableHlo.after_of_writes_sub hostOps0_2 _ hostOps0_2_writes (r := main_arg4) (by decide)
    _ = W1 m ρ c (Proc.devRef .tc main_arg4) := StableHlo.after_of_writes_sub hostOps0_1 _ hostOps0_1_writes (r := main_arg4) (by decide)
    _ = W0 m ρ c (Proc.devRef .tc main_arg4) := StableHlo.after_of_writes_sub hostOps0 _ hostOps0_writes (r := main_arg4) (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_writes_sub hostOps1 _ hostOps1_writes (r := main_arg5) (by decide)
    _ = W4 m ρ c (Proc.devRef .tc main_arg5) := (W5_arr m ρ c 3).trans (((dat0 (V4 m ρ) c).arrAt_in 3 rfl _).trans (A_eq0 (V4 m ρ) c 3))
    _ = W3 m ρ c (Proc.devRef .tc main_arg5) := StableHlo.after_of_writes_sub hostOps0_3 _ hostOps0_3_writes (r := main_arg5) (by decide)
    _ = W2 m ρ c (Proc.devRef .tc main_arg5) := StableHlo.after_of_writes_sub hostOps0_2 _ hostOps0_2_writes (r := main_arg5) (by decide)
    _ = W1 m ρ c (Proc.devRef .tc main_arg5) := StableHlo.after_of_writes_sub hostOps0_1 _ hostOps0_1_writes (r := main_arg5) (by decide)
    _ = W0 m ρ c (Proc.devRef .tc main_arg5) := StableHlo.after_of_writes_sub hostOps0 _ hostOps0_writes (r := main_arg5) (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_writes_sub hostOps1 _ hostOps1_writes (r := main_arg6) (by decide)
    _ = W4 m ρ c (Proc.devRef .tc main_arg6) := W5_of_ne m ρ c main_arg6 (by decide)
    _ = W3 m ρ c (Proc.devRef .tc main_arg6) := StableHlo.after_of_writes_sub hostOps0_3 _ hostOps0_3_writes (r := main_arg6) (by decide)
    _ = W2 m ρ c (Proc.devRef .tc main_arg6) := StableHlo.after_of_writes_sub hostOps0_2 _ hostOps0_2_writes (r := main_arg6) (by decide)
    _ = W1 m ρ c (Proc.devRef .tc main_arg6) := StableHlo.after_of_writes_sub hostOps0_1 _ hostOps0_1_writes (r := main_arg6) (by decide)
    _ = W0 m ρ c (Proc.devRef .tc main_arg6) := StableHlo.after_of_writes_sub hostOps0 _ hostOps0_writes (r := main_arg6) (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_writes_sub hostOps1 _ hostOps1_writes (r := main_arg7) (by decide)
    _ = W4 m ρ c (Proc.devRef .tc main_arg7) := (W5_arr m ρ c 5).trans (((dat0 (V4 m ρ) c).arrAt_in 5 rfl _).trans (A_eq0 (V4 m ρ) c 5))
    _ = W3 m ρ c (Proc.devRef .tc main_arg7) := StableHlo.after_of_writes_sub hostOps0_3 _ hostOps0_3_writes (r := main_arg7) (by decide)
    _ = W2 m ρ c (Proc.devRef .tc main_arg7) := StableHlo.after_of_writes_sub hostOps0_2 _ hostOps0_2_writes (r := main_arg7) (by decide)
    _ = W1 m ρ c (Proc.devRef .tc main_arg7) := StableHlo.after_of_writes_sub hostOps0_1 _ hostOps0_1_writes (r := main_arg7) (by decide)
    _ = W0 m ρ c (Proc.devRef .tc main_arg7) := StableHlo.after_of_writes_sub hostOps0 _ hostOps0_writes (r := main_arg7) (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_writes_sub hostOps1 _ hostOps1_writes (r := main_arg8) (by decide)
    _ = W4 m ρ c (Proc.devRef .tc main_arg8) := W5_of_ne m ρ c main_arg8 (by decide)
    _ = W3 m ρ c (Proc.devRef .tc main_arg8) := StableHlo.after_of_writes_sub hostOps0_3 _ hostOps0_3_writes (r := main_arg8) (by decide)
    _ = W2 m ρ c (Proc.devRef .tc main_arg8) := StableHlo.after_of_writes_sub hostOps0_2 _ hostOps0_2_writes (r := main_arg8) (by decide)
    _ = W1 m ρ c (Proc.devRef .tc main_arg8) := StableHlo.after_of_writes_sub hostOps0_1 _ hostOps0_1_writes (r := main_arg8) (by decide)
    _ = W0 m ρ c (Proc.devRef .tc main_arg8) := StableHlo.after_of_writes_sub hostOps0 _ hostOps0_writes (r := main_arg8) (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := (W7_arr m ρ c 2).trans (((dat1 (V6 m ρ) c).arrAt_in 2 rfl _).trans (A_eq1 (V6 m ρ) c 2))
    _ = W5 m ρ c (Proc.devRef .tc main_arg9) := StableHlo.after_of_writes_sub hostOps1 _ hostOps1_writes (r := main_arg9) (by decide)
    _ = W4 m ρ c (Proc.devRef .tc main_arg9) := W5_of_ne m ρ c main_arg9 (by decide)
    _ = W3 m ρ c (Proc.devRef .tc main_arg9) := StableHlo.after_of_writes_sub hostOps0_3 _ hostOps0_3_writes (r := main_arg9) (by decide)
    _ = W2 m ρ c (Proc.devRef .tc main_arg9) := StableHlo.after_of_writes_sub hostOps0_2 _ hostOps0_2_writes (r := main_arg9) (by decide)
    _ = W1 m ρ c (Proc.devRef .tc main_arg9) := StableHlo.after_of_writes_sub hostOps0_1 _ hostOps0_1_writes (r := main_arg9) (by decide)
    _ = W0 m ρ c (Proc.devRef .tc main_arg9) := StableHlo.after_of_writes_sub hostOps0 _ hostOps0_writes (r := main_arg9) (by decide)
    _ = m ((c : Thread nD τ).loc main_arg9) := rfl

/-- The result array at the end is what the second region's write-backs assemble. -/
theorem W7_main_v39 (c : Dev nD) : W7 m ρ c (Proc.devRef .tc main_v39) = (dat1 (V6 m ρ) c).arrAt 3 cfg1.N :=
  W7_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W4`, left at `W5`. Its arrays are split
    out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ) ]

/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters every weakly fair execution of @main on the TensorCore terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched; and the result array ends at what the second region's
    write-backs assemble. -/
theorem run_frame_result : θ_run defs (onTc (τ := τ) (main (F := F))) ⟨m, fun _ => 0, ρ⟩ (fun r => ∀ c : Dev nD,
      r.2.mem ((c.tc : Thread nD τ).loc main_v39) = (dat1 (V6 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v39 (by decide))).trans (W7_main_v39 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c)⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_frame_result m ρ)

end Cert.KernelIdeal.Fr

end
-- ==== Proof.ValMlp.lean ====
/-
  The first region's array, value side: what the 200 write-backs assemble in the message array is the three-layer
  perceptron of the concatenated rows, index by index the reference's own stage.
-/
import proofs.«427996_j34093450396331_1_alg».proof.Proof.IdealRegion0
import proofs.«427996_j34093450396331_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Val.Mlp

open Cert.KernelIdeal Cert.KernelIdeal.Gen Cert.KernelIdeal.Fr
open Idealize.ShloMosaic Idealize.ShloMosaic.TcCoe Idealize.SL.Sem
open Idealize.ShloMosaic.ValueIdx

/-! ## The perceptron of one row -/

/-- One dense layer at a unit: the input row against the unit's column of weights, plus the unit's bias. -/
def dense {n m : Nat} (x : Fin n → EReal) (W : (⟨2, ![n, m]⟩ : Shape).Idx → EReal) (b : Fin m → EReal) (k : Fin m) : EReal :=
  (∑ j : Fin n, x j * W (ix2 j k)) + b k

/-- The gate between layers, `z · 1 / (1 + e^(-z))`. -/
def silu (z : EReal) : EReal := z * Ideal.div 1 (1 + Ideal.exp (-z))

/-- The three-layer perceptron of one row of 259 features, at an output unit. -/
def mlpRow (x : Fin 259 → EReal) (W1 : S259x64.Idx → EReal) (b1 : Fin 64 → EReal) (W2 : S64x64.Idx → EReal) (b2 : Fin 64 → EReal)
    (W3 : S64x128.Idx → EReal) (b3 : Fin 128 → EReal) (d : Fin 128) : EReal :=
  dense (fun k => silu (dense (fun k' => silu (dense x W1 b1 k')) W2 b2 k)) W3 b3 d

/-- The perceptron depends on its row, weights and biases through their values only. -/
theorem mlpRow_congr {x x' : Fin 259 → EReal} {W1 W1' : S259x64.Idx → EReal} {b1 b1' : Fin 64 → EReal} {W2 W2' : S64x64.Idx → EReal}
    {b2 b2' : Fin 64 → EReal} {W3 W3' : S64x128.Idx → EReal} {b3 b3' : Fin 128 → EReal} (d : Fin 128)
    (hx : ∀ j, x j = x' j) (hW1 : ∀ i, W1 i = W1' i) (hb1 : ∀ k, b1 k = b1' k) (hW2 : ∀ i, W2 i = W2' i) (hb2 : ∀ k, b2 k = b2' k)
    (hW3 : ∀ i, W3 i = W3' i) (hb3 : ∀ k, b3 k = b3' k) :
    mlpRow x W1 b1 W2 b2 W3 b3 d = mlpRow x' W1' b1' W2' b2' W3' b3' d := by
  rw [funext hx, funext hW1, funext hb1, funext hW2, funext hb2, funext hW3, funext hb3]

/-! ## The kernel's three products at a row and a unit -/

theorem lhs_first_0 (i : S5000x64.Idx) (q : dot_S5000x259_S259x64_S5000x64_1_0_0_1_n_n.contr.Idx) :
    (dot_S5000x259_S259x64_S5000x64_1_0_0_1_n_n.lhsIdx i q 0).val = (i 0).val := by
  unfold DotDims.lhsIdx
  rw [dif_neg (show ¬(0 : Fin S5000x259.rank) ∈ dot_S5000x259_S259x64_S5000x64_1_0_0_1_n_n.lhsBatch by decide), dif_pos (show (0 : Fin S5000x259.rank) ∈ dot_S5000x259_S259x64_S5000x64_1_0_0_1_n_n.lhsNonContracting by decide)]
  rfl
theorem lhs_first_1 (i : S5000x64.Idx) (q : dot_S5000x259_S259x64_S5000x64_1_0_0_1_n_n.contr.Idx) :
    (dot_S5000x259_S259x64_S5000x64_1_0_0_1_n_n.lhsIdx i q 1).val = (q ⟨0, by decide⟩).val :=
  dot_S5000x259_S259x64_S5000x64_1_0_0_1_n_n.lhsIdx_val_of_single rfl i q
theorem rhs_first_0 (i : S5000x64.Idx) (q : dot_S5000x259_S259x64_S5000x64_1_0_0_1_n_n.contr.Idx) :
    (dot_S5000x259_S259x64_S5000x64_1_0_0_1_n_n.rhsIdx i q 0).val = (q ⟨0, by decide⟩).val :=
  dot_S5000x259_S259x64_S5000x64_1_0_0_1_n_n.rhsIdx_val_of_single rfl i q
theorem rhs_first_1 (i : S5000x64.Idx) (q : dot_S5000x259_S259x64_S5000x64_1_0_0_1_n_n.contr.Idx) :
    (dot_S5000x259_S259x64_S5000x64_1_0_0_1_n_n.rhsIdx i q 1).val = (i 1).val := by
  unfold DotDims.rhsIdx
  rw [dif_neg (show ¬(1 : Fin S259x64.rank) ∈ dot_S5000x259_S259x64_S5000x64_1_0_0_1_n_n.rhsBatch by decide), dif_pos (show (1 : Fin S259x64.rank) ∈ dot_S5000x259_S259x64_S5000x64_1_0_0_1_n_n.rhsNonContracting by decide)]
  rfl

/-- The first layer's product at a row and a hidden unit: the row's 259 features against the unit's column. -/
theorem matmul_first_apply (X : FVec Ideal S5000x259 .bf16) (W : FVec Ideal S259x64 .bf16) (r : Fin 5000) (k : Fin 64) :
    matmul dot_S5000x259_S259x64_S5000x64_1_0_0_1_n_n none X W (constant (F := Ideal) S5000x64 .f32 0x00000000#32) (ix2 r k)
      = ∑ j : Fin 259, X (ix2 r j) * W (ix2 j k) := by
  simp only [matmul]
  rw [Ideal.matmul_constant_zero_apply, ← Equiv.sum_comp (contrEquiv1 dot_S5000x259_S259x64_S5000x64_1_0_0_1_n_n 259 rfl rfl).symm]
  refine Finset.sum_congr rfl fun j _ => ?_
  have hj := contrEquiv1_symm_val dot_S5000x259_S259x64_S5000x64_1_0_0_1_n_n 259 rfl rfl j
  have el : dot_S5000x259_S259x64_S5000x64_1_0_0_1_n_n.lhsIdx (ix2 r k) ((contrEquiv1 dot_S5000x259_S259x64_S5000x64_1_0_0_1_n_n 259 rfl rfl).symm j) = ix2 r j := funext fun a => Fin.ext (by
    match a with
    | ⟨0, _⟩ => exact lhs_first_0 _ _
    | ⟨1, _⟩ => exact (lhs_first_1 _ _).trans hj)
  have er : dot_S5000x259_S259x64_S5000x64_1_0_0_1_n_n.rhsIdx (ix2 r k) ((contrEquiv1 dot_S5000x259_S259x64_S5000x64_1_0_0_1_n_n 259 rfl rfl).symm j) = ix2 j k := funext fun a => Fin.ext (by
    match a with
    | ⟨0, _⟩ => exact (rhs_first_0 _ _).trans hj
    | ⟨1, _⟩ => exact rhs_first_1 _ _)
  rw [el, er]

theorem lhs_second_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_second_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_second_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_second_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second layer's product at a row and a hidden unit. -/
theorem matmul_second_apply (X : FVec Ideal S5000x64 .bf16) (W : FVec Ideal S64x64 .bf16) (r : Fin 5000) (k : Fin 64) :
    matmul dot_S5000x64_S64x64_S5000x64_1_0_0_1_n_n none X W (constant (F := Ideal) S5000x64 .f32 0x00000000#32) (ix2 r k)
      = ∑ j : Fin 64, X (ix2 r j) * W (ix2 j k) := by
  simp only [matmul]
  rw [Ideal.matmul_constant_zero_apply, ← Equiv.sum_comp (contrEquiv1 dot_S5000x64_S64x64_S5000x64_1_0_0_1_n_n 64 rfl rfl).symm]
  refine Finset.sum_congr rfl fun j _ => ?_
  have hj := contrEquiv1_symm_val dot_S5000x64_S64x64_S5000x64_1_0_0_1_n_n 64 rfl rfl j
  have el : dot_S5000x64_S64x64_S5000x64_1_0_0_1_n_n.lhsIdx (ix2 r k) ((contrEquiv1 dot_S5000x64_S64x64_S5000x64_1_0_0_1_n_n 64 rfl rfl).symm j) = ix2 r j := funext fun a => Fin.ext (by
    match a with
    | ⟨0, _⟩ => exact lhs_second_0 _ _
    | ⟨1, _⟩ => exact (lhs_second_1 _ _).trans hj)
  have er : dot_S5000x64_S64x64_S5000x64_1_0_0_1_n_n.rhsIdx (ix2 r k) ((contrEquiv1 dot_S5000x64_S64x64_S5000x64_1_0_0_1_n_n 64 rfl rfl).symm j) = ix2 j k := funext fun a => Fin.ext (by
    match a with
    | ⟨0, _⟩ => exact (rhs_second_0 _ _).trans hj
    | ⟨1, _⟩ => exact rhs_second_1 _ _)
  rw [el, er]

theorem lhs_third_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_third_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_third_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_third_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The third layer's product at a row and an output unit. -/
theorem matmul_third_apply (X : FVec Ideal S5000x64 .bf16) (W : FVec Ideal S64x128 .bf16) (r : Fin 5000) (k : Fin 128) :
    matmul dot_S5000x64_S64x128_S5000x128_1_0_0_1_n_n none X W (constant (F := Ideal) S5000x128 .f32 0x00000000#32) (ix2 r k)
      = ∑ j : Fin 64, X (ix2 r j) * W (ix2 j k) := by
  simp only [matmul]
  rw [Ideal.matmul_constant_zero_apply, ← Equiv.sum_comp (contrEquiv1 dot_S5000x64_S64x128_S5000x128_1_0_0_1_n_n 64 rfl rfl).symm]
  refine Finset.sum_congr rfl fun j _ => ?_
  have hj := contrEquiv1_symm_val dot_S5000x64_S64x128_S5000x128_1_0_0_1_n_n 64 rfl rfl j
  have el : dot_S5000x64_S64x128_S5000x128_1_0_0_1_n_n.lhsIdx (ix2 r k) ((contrEquiv1 dot_S5000x64_S64x128_S5000x128_1_0_0_1_n_n 64 rfl rfl).symm j) = ix2 r j := funext fun a => Fin.ext (by
    match a with
    | ⟨0, _⟩ => exact lhs_third_0 _ _
    | ⟨1, _⟩ => exact (lhs_third_1 _ _).trans hj)
  have er : dot_S5000x64_S64x128_S5000x128_1_0_0_1_n_n.rhsIdx (ix2 r k) ((contrEquiv1 dot_S5000x64_S64x128_S5000x128_1_0_0_1_n_n 64 rfl rfl).symm j) = ix2 j k := funext fun a => Fin.ext (by
    match a with
    | ⟨0, _⟩ => exact (rhs_third_0 _ _).trans hj
    | ⟨1, _⟩ => exact rhs_third_1 _ _)
  rw [el, er]

/-! ## The body's value at a row and an output unit -/

/-- A product of the block with a weight matrix plus the one-row bias spread over the rows is the dense layer, first layer. -/
theorem layer_first_apply (X : FVec Ideal S5000x259 .f32) (W : FVec Ideal S259x64 .f32) (B : FVec Ideal S1x64 .f32) (r : Fin 5000) (k : Fin 64) :
    addf (matmul dot_S5000x259_S259x64_S5000x64_1_0_0_1_n_n none (truncf .bf16 X bitsLt_bf16_f32) (truncf .bf16 W bitsLt_bf16_f32) (constant (F := Ideal) S5000x64 .f32 0x00000000#32))
        (broadcastTo S5000x64 B broadcasts_S1x64_S5000x64) (ix2 r k)
      = dense (fun j => X (ix2 r j)) W (fun k => B (ix2 (0 : Fin 1) k)) k := by
  rw [addf_apply, matmul_first_apply, broadcastTo_1b_ab_apply]; rfl

/-- The same for the second layer. -/
theorem layer_second_apply (X : FVec Ideal S5000x64 .f32) (W : FVec Ideal S64x64 .f32) (B : FVec Ideal S1x64 .f32) (r : Fin 5000) (k : Fin 64) :
    addf (matmul dot_S5000x64_S64x64_S5000x64_1_0_0_1_n_n none (truncf .bf16 X bitsLt_bf16_f32) (truncf .bf16 W bitsLt_bf16_f32) (constant (F := Ideal) S5000x64 .f32 0x00000000#32))
        (broadcastTo S5000x64 B broadcasts_S1x64_S5000x64) (ix2 r k)
      = dense (fun j => X (ix2 r j)) W (fun k => B (ix2 (0 : Fin 1) k)) k := by
  rw [addf_apply, matmul_second_apply, broadcastTo_1b_ab_apply]; rfl

/-- The same for the third layer. -/
theorem layer_third_apply (X : FVec Ideal S5000x64 .f32) (W : FVec Ideal S64x128 .f32) (B : FVec Ideal S1x128 .f32) (r : Fin 5000) (d : Fin 128) :
    addf (matmul dot_S5000x64_S64x128_S5000x128_1_0_0_1_n_n none (truncf .bf16 X bitsLt_bf16_f32) (truncf .bf16 W bitsLt_bf16_f32) (constant (F := Ideal) S5000x128 .f32 0x00000000#32))
        (broadcastTo S5000x128 B broadcasts_S1x128_S5000x128) (ix2 r d)
      = dense (fun j => X (ix2 r j)) W (fun k => B (ix2 (0 : Fin 1) k)) d := by
  rw [addf_apply, matmul_third_apply, broadcastTo_1b_ab_apply]; rfl

/-- A pre-activation times its logistic is the gate of the pre-activation. -/
theorem gate_apply {s : Shape} (A : FVec Ideal s .f32) (i : s.Idx) : mulf A (logistic A) i = silu (A i) := rfl

/-- The body's value on seven blocks, at row `r` and output unit `d`, is the perceptron of row `r` of the first block. -/
theorem payload_apply (X : Vec Ideal S5000x259 .f32) (W1 : Vec Ideal S259x64 .f32) (B1 : Vec Ideal S1x64 .f32) (W2 : Vec Ideal S64x64 .f32)
    (B2 : Vec Ideal S1x64 .f32) (W3 : Vec Ideal S64x128 .f32) (B3 : Vec Ideal S1x128 .f32) (r : Fin 5000) (d : Fin 128) :
    k0_pay1 (F := Ideal) X W1 B1 W2 B2 W3 B3 (ix2 r d)
      = mlpRow (fun j => X (ix2 r j)) W1 (fun k => B1 (ix2 (0 : Fin 1) k)) W2 (fun k => B2 (ix2 (0 : Fin 1) k)) W3 (fun k => B3 (ix2 (0 : Fin 1) k)) d := by
  unfold k0_pay1
  simp only [shapeCast_self]
  rw [layer_third_apply]
  unfold mlpRow
  refine congrArg (fun x => dense x W3 _ d) (funext fun k => ?_)
  rw [gate_apply, layer_second_apply]
  refine congrArg (fun x => silu (dense x W2 _ k)) (funext fun k' => ?_)
  rw [gate_apply, layer_first_apply]

/-! ## The reference's stages at a row and a unit -/

open Cert.ReferenceIdeal.Read in
/-- The reference's first pre-activation: the product with the first weight matrix plus the bias broadcast twice. -/
theorem ref_first_apply (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (n : Fin 1000000) (k : Fin 64) :
    val_main_v26 (F := Ideal) x0 x1 x2 x3 x4 (ix2 n k)
      = dense (fun j => val_main_v22 (F := Ideal) x0 x1 x2 (ix2 n j)) x3 (fun k => x4 (ix1 k)) k := by
  rw [val_main_v26_apply, val_main_v23_apply, val_main_v25_apply, val_main_v24_apply]
  generalize val_main_v22 (F := Ideal) x0 x1 x2 = D
  have el : ∀ j : Fin 259, lidx_main_v23 (ix2 n k) j = ix2 n j := fun j => funext fun a => Fin.ext (by
    match a with
    | ⟨0, _⟩ => rfl
    | ⟨1, _⟩ => rfl)
  have er : ∀ j : Fin 259, ridx_main_v23 (ix2 n k) j = ix2 j k := fun j => funext fun a => Fin.ext (by
    match a with
    | ⟨0, _⟩ => rfl
    | ⟨1, _⟩ => rfl)
  have eb : idx_main_v24 (idx_main_v25 (ix2 n k)) = ix1 k := funext fun a => Fin.ext (by
    match a with
    | ⟨0, _⟩ => rfl)
  simp only [el, er, eb]
  rfl

open Cert.ReferenceIdeal.Read in
/-- The reference's first gate, spelled negate, exponential, one plus, one over, times. -/
theorem ref_gate_first_apply (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (i : Cert.ReferenceIdeal.S1000000x64.Idx) :
    val_main_v27 (F := Ideal) x0 x1 x2 x3 x4 i = silu (val_main_v26 (F := Ideal) x0 x1 x2 x3 x4 i) := by
  rw [val_main_v27_apply, val_main_call0_v5_apply, val_main_call0_v4_apply, val_main_call0_cst_0_apply, val_main_call0_v3_apply,
    val_main_call0_v2_apply, val_main_call0_cst_apply, val_main_call0_v1_apply, val_main_call0_v0_apply]
  generalize val_main_v26 (F := Ideal) x0 x1 x2 x3 x4 i = z
  show z * Ideal.div (Ideal.ofBits .f32 0x3F800000#32) (Ideal.ofBits .f32 0x3F800000#32 + Ideal.exp (-z)) = z * Ideal.div 1 (1 + Ideal.exp (-z))
  rw [Ideal.ofBits_one_f32]

open Cert.ReferenceIdeal.Read in
/-- The reference's second pre-activation. -/
theorem ref_second_apply (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (n : Fin 1000000) (k : Fin 64) :
    val_main_v31 (F := Ideal) x0 x1 x2 x3 x4 x5 x6 (ix2 n k)
      = dense (fun j => val_main_v27 (F := Ideal) x0 x1 x2 x3 x4 (ix2 n j)) x5 (fun k => x6 (ix1 k)) k := by
  rw [val_main_v31_apply, val_main_v28_apply, val_main_v30_apply, val_main_v29_apply]
  generalize val_main_v27 (F := Ideal) x0 x1 x2 x3 x4 = A
  have el : ∀ j : Fin 64, lidx_main_v28 (ix2 n k) j = ix2 n j := fun j => funext fun a => Fin.ext (by
    match a with
    | ⟨0, _⟩ => rfl
    | ⟨1, _⟩ => rfl)
  have er : ∀ j : Fin 64, ridx_main_v28 (ix2 n k) j = ix2 j k := fun j => funext fun a => Fin.ext (by
    match a with
    | ⟨0, _⟩ => rfl
    | ⟨1, _⟩ => rfl)
  have eb : idx_main_v29 (idx_main_v30 (ix2 n k)) = ix1 k := funext fun a => Fin.ext (by
    match a with
    | ⟨0, _⟩ => rfl)
  simp only [el, er, eb]
  rfl

open Cert.ReferenceIdeal.Read in
/-- The reference's second gate. -/
theorem ref_gate_second_apply (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (i : Cert.ReferenceIdeal.S1000000x64.Idx) :
    val_main_v32 (F := Ideal) x0 x1 x2 x3 x4 x5 x6 i = silu (val_main_v31 (F := Ideal) x0 x1 x2 x3 x4 x5 x6 i) := by
  rw [val_main_v32_apply, val_main_call1_v5_apply, val_main_call1_v4_apply, val_main_call1_cst_0_apply, val_main_call1_v3_apply,
    val_main_call1_v2_apply, val_main_call1_cst_apply, val_main_call1_v1_apply, val_main_call1_v0_apply]
  generalize val_main_v31 (F := Ideal) x0 x1 x2 x3 x4 x5 x6 i = z
  show z * Ideal.div (Ideal.ofBits .f32 0x3F800000#32) (Ideal.ofBits .f32 0x3F800000#32 + Ideal.exp (-z)) = z * Ideal.div 1 (1 + Ideal.exp (-z))
  rw [Ideal.ofBits_one_f32]

open Cert.ReferenceIdeal.Read in
/-- The reference's output layer. -/
theorem ref_third_apply (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (n : Fin 1000000) (d : Fin 128) :
    val_main_v36 (F := Ideal) x0 x1 x2 x3 x4 x5 x6 x7 x8 (ix2 n d)
      = dense (fun j => val_main_v32 (F := Ideal) x0 x1 x2 x3 x4 x5 x6 (ix2 n j)) x7 (fun k => x8 (ix1 k)) d := by
  rw [val_main_v36_apply, val_main_v33_apply, val_main_v35_apply, val_main_v34_apply]
  generalize val_main_v32 (F := Ideal) x0 x1 x2 x3 x4 x5 x6 = A
  have el : ∀ j : Fin 64, lidx_main_v33 (ix2 n d) j = ix2 n j := fun j => funext fun a => Fin.ext (by
    match a with
    | ⟨0, _⟩ => rfl
    | ⟨1, _⟩ => rfl)
  have er : ∀ j : Fin 64, ridx_main_v33 (ix2 n d) j = ix2 j d := fun j => funext fun a => Fin.ext (by
    match a with
    | ⟨0, _⟩ => rfl
    | ⟨1, _⟩ => rfl)
  have eb : idx_main_v34 (idx_main_v35 (ix2 n d)) = ix1 d := funext fun a => Fin.ext (by
    match a with
    | ⟨0, _⟩ => rfl)
  simp only [el, er, eb]
  rfl

open Cert.ReferenceIdeal.Read in
/-- The reference's message stage at row `n` and unit `d` is the perceptron of row `n` of the concatenated rows. -/
theorem reference_apply (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (n : Fin 1000000) (d : Fin 128) :
    val_main_v36 (F := Ideal) x0 x1 x2 x3 x4 x5 x6 x7 x8 (ix2 n d)
      = mlpRow (fun j => val_main_v22 (F := Ideal) x0 x1 x2 (ix2 n j)) x3 (fun k => x4 (ix1 k)) x5 (fun k => x6 (ix1 k)) x7 (fun k => x8 (ix1 k)) d := by
  rw [ref_third_apply]
  unfold mlpRow
  refine congrArg (fun x => dense x x7 _ d) (funext fun k => ?_)
  rw [ref_gate_second_apply, ref_second_apply]
  refine congrArg (fun x => silu (dense x x5 _ k)) (funext fun k' => ?_)
  rw [ref_gate_first_apply, ref_first_apply]

/-! ## The windows' blocks at a point -/

theorem zero_offsets : (![0, 0] : Fin 2 → Nat) = fun _ => 0 := funext fun a => by fin_cases a <;> rfl

/-- The printed index maps, decided over the grid: the row windows (the concatenated rows, the messages) sit at block `(t, 0)`,
    the weights and biases at block `(0, 0)`. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- The rows' window at point `t` holds rows `5000 t … 5000 t + 4999` of the concatenated rows. -/
theorem rows_blk_apply (V : (c : Dev nD) → (b : Ref sig .tc) → Buf (Elt Ideal) ((c : Thread nD τ).loc b)) (c : Dev nD) (t : Fin cfg0.N) (r : Fin 5000) (j : Fin 259) (n : Fin 1000000)
    (hn : n.val = t.val * 5000 + r.val) :
    (iblk0 (F := Ideal) V c 0 t : S5000x259.Idx → EReal) (ix2 r j) = (V c main_v10 : S1000000x259.Idx → EReal) (ix2 n j) := by
  obtain ⟨e00, e01, e10, e11, e20, e21, e30, e31, e40, e41, e50, e51, e60, e61, e70, e71⟩ := index_facts t
  show (V c main_v10 : S1000000x259.Idx → EReal) (((cfg0.win 0).blk t).view.emb (ix2 r j)) = _
  refine congrArg (V c main_v10 : S1000000x259.Idx → EReal) (funext fun a => Fin.ext ?_)
  match a with
  | ⟨0, _⟩ => show win0_0.index t (0 : Fin 2) * 5000 + 1 * r.val = n.val; rw [e00, hn]; omega
  | ⟨1, _⟩ => show win0_0.index t (1 : Fin 2) * 259 + 1 * j.val = j.val; rw [e01]; omega

/-- The first weight matrix's window is the whole matrix at every point. -/
theorem weights_first_blk_apply (V : (c : Dev nD) → (b : Ref sig .tc) → Buf (Elt Ideal) ((c : Thread nD τ).loc b)) (c : Dev nD) (t : Fin cfg0.N) (y : S259x64.Idx) :
    (iblk0 (F := Ideal) V c 1 t : S259x64.Idx → EReal) y = (V c main_arg3 : S259x64.Idx → EReal) y := by
  obtain ⟨e00, e01, e10, e11, e20, e21, e30, e31, e40, e41, e50, e51, e60, e61, e70, e71⟩ := index_facts t
  show (V c main_arg3 : S259x64.Idx → EReal) (((cfg0.win 1).blk t).view.emb y) = _
  refine congrArg (V c main_arg3 : S259x64.Idx → EReal) (funext fun a => Fin.ext ?_)
  match a with
  | ⟨0, _⟩ => show win0_1.index t (0 : Fin 2) * 259 + 1 * (y 0).val = (y 0).val; rw [e10]; omega
  | ⟨1, _⟩ => show win0_1.index t (1 : Fin 2) * 64 + 1 * (y 1).val = (y 1).val; rw [e11]; omega

/-- The first bias row's window is the whole row at every point. -/
theorem bias_first_blk_apply (V : (c : Dev nD) → (b : Ref sig .tc) → Buf (Elt Ideal) ((c : Thread nD τ).loc b)) (c : Dev nD) (t : Fin cfg0.N) (y : S1x64.Idx) :
    (iblk0 (F := Ideal) V c 2 t : S1x64.Idx → EReal) y = (V c main_v11 : S1x64.Idx → EReal) y := by
  obtain ⟨e00, e01, e10, e11, e20, e21, e30, e31, e40, e41, e50, e51, e60, e61, e70, e71⟩ := index_facts t
  show (V c main_v11 : S1x64.Idx → EReal) (((cfg0.win 2).blk t).view.emb y) = _
  refine congrArg (V c main_v11 : S1x64.Idx → EReal) (funext fun a => Fin.ext ?_)
  match a with
  | ⟨0, _⟩ => show win0_2.index t (0 : Fin 2) * 1 + 1 * (y 0).val = (y 0).val; rw [e20]; omega
  | ⟨1, _⟩ => show win0_2.index t (1 : Fin 2) * 64 + 1 * (y 1).val = (y 1).val; rw [e21]; omega

/-- The second weight matrix's window is the whole matrix at every point. -/
theorem weights_second_blk_apply (V : (c : Dev nD) → (b : Ref sig .tc) → Buf (Elt Ideal) ((c : Thread nD τ).loc b)) (c : Dev nD) (t : Fin cfg0.N) (y : S64x64.Idx) :
    (iblk0 (F := Ideal) V c 3 t : S64x64.Idx → EReal) y = (V c main_arg5 : S64x64.Idx → EReal) y := by
  obtain ⟨e00, e01, e10, e11, e20, e21, e30, e31, e40, e41, e50, e51, e60, e61, e70, e71⟩ := index_facts t
  show (V c main_arg5 : S64x64.Idx → EReal) (((cfg0.win 3).blk t).view.emb y) = _
  refine congrArg (V c main_arg5 : S64x64.Idx → EReal) (funext fun a => Fin.ext ?_)
  match a with
  | ⟨0, _⟩ => show win0_3.index t (0 : Fin 2) * 64 + 1 * (y 0).val = (y 0).val; rw [e30]; omega
  | ⟨1, _⟩ => show win0_3.index t (1 : Fin 2) * 64 + 1 * (y 1).val = (y 1).val; rw [e31]; omega

/-- The second bias row's window is the whole row at every point. -/
theorem bias_second_blk_apply (V : (c : Dev nD) → (b : Ref sig .tc) → Buf (Elt Ideal) ((c : Thread nD τ).loc b)) (c : Dev nD) (t : Fin cfg0.N) (y : S1x64.Idx) :
    (iblk0 (F := Ideal) V c 4 t : S1x64.Idx → EReal) y = (V c main_v12 : S1x64.Idx → EReal) y := by
  obtain ⟨e00, e01, e10, e11, e20, e21, e30, e31, e40, e41, e50, e51, e60, e61, e70, e71⟩ := index_facts t
  show (V c main_v12 : S1x64.Idx → EReal) (((cfg0.win 4).blk t).view.emb y) = _
  refine congrArg (V c main_v12 : S1x64.Idx → EReal) (funext fun a => Fin.ext ?_)
  match a with
  | ⟨0, _⟩ => show win0_4.index t (0 : Fin 2) * 1 + 1 * (y 0).val = (y 0).val; rw [e40]; omega
  | ⟨1, _⟩ => show win0_4.index t (1 : Fin 2) * 64 + 1 * (y 1).val = (y 1).val; rw [e41]; omega

/-- The third weight matrix's window is the whole matrix at every point. -/
theorem weights_third_blk_apply (V : (c : Dev nD) → (b : Ref sig .tc) → Buf (Elt Ideal) ((c : Thread nD τ).loc b)) (c : Dev nD) (t : Fin cfg0.N) (y : S64x128.Idx) :
    (iblk0 (F := Ideal) V c 5 t : S64x128.Idx → EReal) y = (V c main_arg7 : S64x128.Idx → EReal) y := by
  obtain ⟨e00, e01, e10, e11, e20, e21, e30, e31, e40, e41, e50, e51, e60, e61, e70, e71⟩ := index_facts t
  show (V c main_arg7 : S64x128.Idx → EReal) (((cfg0.win 5).blk t).view.emb y) = _
  refine congrArg (V c main_arg7 : S64x128.Idx → EReal) (funext fun a => Fin.ext ?_)
  match a with
  | ⟨0, _⟩ => show win0_5.index t (0 : Fin 2) * 64 + 1 * (y 0).val = (y 0).val; rw [e50]; omega
  | ⟨1, _⟩ => show win0_5.index t (1 : Fin 2) * 128 + 1 * (y 1).val = (y 1).val; rw [e51]; omega

/-- The third bias row's window is the whole row at every point. -/
theorem bias_third_blk_apply (V : (c : Dev nD) → (b : Ref sig .tc) → Buf (Elt Ideal) ((c : Thread nD τ).loc b)) (c : Dev nD) (t : Fin cfg0.N) (y : S1x128.Idx) :
    (iblk0 (F := Ideal) V c 6 t : S1x128.Idx → EReal) y = (V c main_v13 : S1x128.Idx → EReal) y := by
  obtain ⟨e00, e01, e10, e11, e20, e21, e30, e31, e40, e41, e50, e51, e60, e61, e70, e71⟩ := index_facts t
  show (V c main_v13 : S1x128.Idx → EReal) (((cfg0.win 6).blk t).view.emb y) = _
  refine congrArg (V c main_v13 : S1x128.Idx → EReal) (funext fun a => Fin.ext ?_)
  match a with
  | ⟨0, _⟩ => show win0_6.index t (0 : Fin 2) * 1 + 1 * (y 0).val = (y 0).val; rw [e60]; omega
  | ⟨1, _⟩ => show win0_6.index t (1 : Fin 2) * 128 + 1 * (y 1).val = (y 1).val; rw [e61]; omega

/-! ## What a point writes back, and the cover -/

/-- What point `t` writes back is block `t` of the reference's message stage: at row `r` of the block both are the perceptron of
    row `5000 t + r` of the concatenated rows, under the same weights and biases. -/
theorem written_block_eq (V : (c : Dev nD) → (b : Ref sig .tc) → Buf (Elt Ideal) ((c : Thread nD τ).loc b)) (c : Dev nD)
    (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal))
    (h10 : V c main_v10 = Cert.ReferenceIdeal.Read.val_main_v22 (F := Ideal) x0 x1 x2)
    (h3 : V c main_arg3 = x3) (h11 : V c main_v11 = shapeCast S1x64 x4 shapeCasts_S64_S1x64)
    (h5 : V c main_arg5 = x5) (h12 : V c main_v12 = shapeCast S1x64 x6 shapeCasts_S64_S1x64)
    (h7 : V c main_arg7 = x7) (h13 : V c main_v13 = shapeCast S1x128 x8 shapeCasts_S128_S1x128) (t : Fin cfg0.N) :
    (dat0 (F := Ideal) V c).flushed 7 t
      = ((cfg0.win 7).blk t).view.read (Elt Ideal) (Cert.ReferenceIdeal.Read.val_main_v36 (F := Ideal) x0 x1 x2 x3 x4 x5 x6 x7 x8) := by
  show (cfg0.win 7).cut (grid0.coords t) ((dat0 V c).after 7 t) = _
  rw [after0_7]
  unfold out0_7
  rw [View.canon_unit_zero zero_offsets]
  simp only [View.ld_unit_zero (S := S5000x259) zero_offsets, View.ld_unit_zero (S := S259x64) zero_offsets,
    View.ld_unit_zero (S := S1x64) zero_offsets, View.ld_unit_zero (S := S64x64) zero_offsets,
    View.ld_unit_zero (S := S64x128) zero_offsets, View.ld_unit_zero (S := S1x128) zero_offsets]
  funext y
  obtain ⟨e00, e01, e10, e11, e20, e21, e30, e31, e40, e41, e50, e51, e60, e61, e70, e71⟩ := index_facts t
  have hr : (y 0).val < 5000 := (y 0).isLt
  have hd : (y 1).val < 128 := (y 1).isLt
  have ht : t.val < 200 := t.isLt
  have hy : (cfg0.win 7).xinj (grid0.coords t) y = ix2 (⟨(y 0).val, hr⟩ : Fin 5000) (⟨(y 1).val, hd⟩ : Fin 128) :=
    funext fun a => match a with
      | ⟨0, _⟩ => rfl
      | ⟨1, _⟩ => rfl
  have hi : ((cfg0.win 7).blk t).view.emb y = ix2 (⟨t.val * 5000 + (y 0).val, by omega⟩ : Fin 1000000) (⟨(y 1).val, hd⟩ : Fin 128) := by
    funext a; apply Fin.ext
    match a with
    | ⟨0, _⟩ => show win0_7.index t (0 : Fin 2) * 5000 + 1 * (y 0).val = t.val * 5000 + (y 0).val; rw [e70]; omega
    | ⟨1, _⟩ => show win0_7.index t (1 : Fin 2) * 128 + 1 * (y 1).val = (y 1).val; rw [e71]; omega
  show k0_pay1 (F := Ideal) (iblk0 V c 0 t) (iblk0 V c 1 t) (iblk0 V c 2 t) (iblk0 V c 3 t) (iblk0 V c 4 t) (iblk0 V c 5 t) (iblk0 V c 6 t)
      ((cfg0.win 7).xinj (grid0.coords t) y)
    = Cert.ReferenceIdeal.Read.val_main_v36 (F := Ideal) x0 x1 x2 x3 x4 x5 x6 x7 x8 (((cfg0.win 7).blk t).view.emb y)
  rw [hy, hi, payload_apply, reference_apply]
  refine mlpRow_congr _ (fun j => ?_) (fun i => ?_) (fun k => ?_) (fun i => ?_) (fun k => ?_) (fun i => ?_) (fun k => ?_)
  · rw [rows_blk_apply V c t ⟨(y 0).val, hr⟩ j ⟨t.val * 5000 + (y 0).val, by omega⟩ rfl, h10]
  · rw [weights_first_blk_apply, h3]
  · rw [bias_first_blk_apply, h11, shapeCast_a_1a_apply]
  · rw [weights_second_blk_apply, h5]
  · rw [bias_second_blk_apply, h12, shapeCast_a_1a_apply]
  · rw [weights_third_blk_apply, h7]
  · rw [bias_third_blk_apply, h13, shapeCast_a_1a_apply]

/-- An index of the message array is in point `t`'s block iff each coordinate is in the block's range on its axis. -/
theorem mem_written_block (t : Fin cfg0.N) (i : S1000000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v14).slice (win0_7.rect t)).set ↔ _
  rw [View.set_slice_whole, Rect.mem_set_unit]
  exact Iff.rfl

/-- Row `n` of the message array is written back by point `n / 5000`. -/
theorem rows_covered (i : S1000000x128.Idx) : ∃ t : Fin cfg0.N, (cfg0.win 7).flush t = true ∧ i ∈ ((cfg0.win 7).blk t).view.set := by
  have hi0 : (i 0).val < 1000000 := (i 0).isLt
  have hi1 : (i 1).val < 128 := (i 1).isLt
  have hN : cfg0.N = 200 := rfl
  refine ⟨⟨(i 0).val / 5000, by rw [hN]; omega⟩, flush0_7 _, ?_⟩
  obtain ⟨e00, e01, e10, e11, e20, e21, e30, e31, e40, e41, e50, e51, e60, e61, e70, e71⟩ := index_facts ⟨(i 0).val / 5000, by rw [hN]; omega⟩
  rw [mem_written_block]
  intro a
  match a with
  | ⟨0, _⟩ => show win0_7.index _ (0 : Fin 2) * 5000 ≤ (i 0).val ∧ (i 0).val < win0_7.index _ (0 : Fin 2) * 5000 + 5000; rw [e70]; show (i 0).val / 5000 * 5000 ≤ (i 0).val ∧ (i 0).val < (i 0).val / 5000 * 5000 + 5000; omega
  | ⟨1, _⟩ => show win0_7.index _ (1 : Fin 2) * 128 ≤ (i 1).val ∧ (i 1).val < win0_7.index _ (1 : Fin 2) * 128 + 128; rw [e71]; omega

end Cert.KernelIdeal.Val.Mlp

namespace Cert.KernelIdeal.Val

open Cert.KernelIdeal Cert.KernelIdeal.Gen Cert.KernelIdeal.Fr
open Idealize.ShloMosaic Idealize.ShloMosaic.TcCoe Idealize.SL.Sem

/-- The message array after the first region: from the region's entry contents `V` — the concatenated rows in
    `main_v10`, the three weight matrices, the three biases reshaped to one row — the blocks written back assemble the
    reference's message stage. -/
theorem msgs_eq (V : (c : Dev nD) → (b : Ref sig .tc) → Buf (Elt Ideal) ((c : Thread nD τ).loc b)) (c : Dev nD)
    (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal))
    (h10 : V c main_v10 = Cert.ReferenceIdeal.Read.val_main_v22 (F := Ideal) x0 x1 x2)
    (h3 : V c main_arg3 = x3) (h11 : V c main_v11 = shapeCast S1x64 x4 shapeCasts_S64_S1x64)
    (h5 : V c main_arg5 = x5) (h12 : V c main_v12 = shapeCast S1x64 x6 shapeCasts_S64_S1x64)
    (h7 : V c main_arg7 = x7) (h13 : V c main_v13 = shapeCast S1x128 x8 shapeCasts_S128_S1x128) :
    (dat0 (F := Ideal) V c).arrAt 7 cfg0.N = Cert.ReferenceIdeal.Read.val_main_v36 (F := Ideal) x0 x1 x2 x3 x4 x5 x6 x7 x8 := by
  exact (dat0 (F := Ideal) V c).arrAt_eq_of_cover 7 (Cert.ReferenceIdeal.Read.val_main_v36 (F := Ideal) x0 x1 x2 x3 x4 x5 x6 x7 x8)
    (fun t _ => Mlp.written_block_eq V c x0 x1 x2 x3 x4 x5 x6 x7 x8 h10 h3 h11 h5 h12 h7 h13 t) Mlp.rows_covered

end Cert.KernelIdeal.Val

end
-- ==== Proof.ValComb.lean ====
/-
  The second region's array, value side: what the 50 write-backs assemble in the result array is half the sum of the
  two aggregated arrays times the output weights, the reference's last two operations.
-/
import proofs.«427996_j34093450396331_1_alg».proof.Proof.IdealRegion1
import proofs.«427996_j34093450396331_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

/-- The reference's last two operations on the two aggregated arrays `aj`, `ak` and the output weights `w`: the sum
    times one half, then the matrix product. -/
def combine (aj ak : FVec Ideal Cert.ReferenceIdeal.S100000x128 .f32)
    (w : FVec Ideal Cert.ReferenceIdeal.S128x128 .f32) :
    FVec Ideal Cert.ReferenceIdeal.S100000x128 .f32 :=
  Host.dotGeneral (F := Ideal) Cert.ReferenceIdeal.dot_S100000x128_S128x128_S100000x128_1_0_0_1_n_n none
    (mulf (F := Ideal) (addf (F := Ideal) aj ak) (Cert.ReferenceIdeal.Read.val_main_v62 (F := Ideal))) w

section Helpers
open Idealize.ShloMosaic.ValueIdx

/-! ## The kernel's contraction: its operand indices at an output index and a contraction index -/

private theorem lhs_k_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem lhs_k_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem rhs_k_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem rhs_k_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's payload at row `r`, column `d` of its block: the sum over `k` of half the sum of the two input blocks at
    `(r, k)` times the weights at `(k, d)` (the format changes are the identity on extended reals; the accumulator is zero). -/
private theorem pay_apply (x0 x1 : Vec Ideal S2000x128 .f32) (x2 : Vec Ideal S128x128 .f32) (r : Fin 2000) (d : Fin 128) :
    k1_pay1 (F := Ideal) x0 x1 x2 (ix2 r d)
      = ∑ k : Fin 128, ((x0 (ix2 r k) + x1 (ix2 r k)) * Ideal.ofBits .f32 0x3F000000#32) * x2 (ix2 k d) := by
  unfold k1_pay1
  simp only [shapeCast_self]
  generalize hl : truncf (F := Ideal) .bf16 (mulf (F := Ideal) (addf (F := Ideal) x0 x1) (broadcast S2000x128 (Scalar.ofBits (F := Ideal) .f32 0x3F000000#32))) bitsLt_bf16_f32 = yl
  generalize hr : truncf (F := Ideal) .bf16 x2 bitsLt_bf16_f32 = yr
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r d) ((contrEquiv1 dot_S2000x128_S128x128_S2000x128_1_0_0_1_n_n 128 rfl rfl).symm k) = ix2 r k := funext fun a => Fin.ext (by
    match a with
    | ⟨0, _⟩ => exact lhs_k_0 _ _
    | ⟨1, _⟩ => exact (lhs_k_1 _ _).trans hk)
  have er : dot_S2000x128_S128x128_S2000x128_1_0_0_1_n_n.rhsIdx (ix2 r d) ((contrEquiv1 dot_S2000x128_S128x128_S2000x128_1_0_0_1_n_n 128 rfl rfl).symm k) = ix2 k d := funext fun a => Fin.ext (by
    match a with
    | ⟨0, _⟩ => exact (rhs_k_0 _ _).trans hk
    | ⟨1, _⟩ => exact rhs_k_1 _ _)
  rw [el, er]
  subst hl hr
  rfl

/-- The reference's product at row `n`, column `d`: the same sum over `k`, of half the sum of the two arrays at `(n, k)`
    times the weights at `(k, d)`. -/
private theorem combine_apply (aj ak : FVec Ideal Cert.ReferenceIdeal.S100000x128 .f32)
    (w : FVec Ideal Cert.ReferenceIdeal.S128x128 .f32) (n : Fin 100000) (d : Fin 128) :
    combine aj ak w (ix2 n d)
      = ∑ k : Fin 128, ((aj (ix2 n k) + ak (ix2 n k)) * Ideal.ofBits .f32 0x3F000000#32) * w (ix2 k d) := by
  unfold combine
  generalize hy : mulf (F := Ideal) (addf (F := Ideal) aj ak) (Cert.ReferenceIdeal.Read.val_main_v62 (F := Ideal)) = y0
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n d) ((contrEquiv1 Cert.ReferenceIdeal.dot_S100000x128_S128x128_S100000x128_1_0_0_1_n_n 128 rfl rfl).symm k) = ix2 n k := funext fun a => Fin.ext (by
    match a with
    | ⟨0, _⟩ => exact Cert.ReferenceIdeal.Read.lhs_main_v64_0 _ _
    | ⟨1, _⟩ => exact (Cert.ReferenceIdeal.Read.lhs_main_v64_1 _ _).trans hk)
  have er : Cert.ReferenceIdeal.dot_S100000x128_S128x128_S100000x128_1_0_0_1_n_n.rhsIdx (ix2 n d) ((contrEquiv1 Cert.ReferenceIdeal.dot_S100000x128_S128x128_S100000x128_1_0_0_1_n_n 128 rfl rfl).symm k) = ix2 k d := funext fun a => Fin.ext (by
    match a with
    | ⟨0, _⟩ => exact (Cert.ReferenceIdeal.Read.rhs_main_v64_0 _ _).trans hk
    | ⟨1, _⟩ => exact Cert.ReferenceIdeal.Read.rhs_main_v64_1 _ _)
  rw [el, er]
  subst hy
  rw [mulf_apply, addf_apply, Cert.ReferenceIdeal.Read.val_main_v62_apply, Cert.ReferenceIdeal.Read.val_main_cst_10_apply]
  rfl

end Helpers

section Blocks
open Idealize.ShloMosaic.ValueIdx

variable (V : (c : Dev nD) → (b : Ref sig .tc) → Buf (Elt Ideal) ((c : Thread nD τ).loc b)) (c : Dev nD)

private theorem hz : (![0, 0] : Fin 2 → Nat) = fun _ => 0 := funext fun a => by fin_cases a <;> rfl

/-- The printed index maps, decided over the grid: the two aggregated arrays' windows and the output's sit at row block
    `t`, column block 0; the weights' window at block (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

private theorem t_lt (t : Fin cfg1.N) : t.val < 50 :=
  Nat.lt_of_lt_of_eq t.isLt (N_1 : cfg1.N = 50)

/-- The first aggregated array's block at point `t` is its rows `2000 t … 2000 t + 1999`. -/
private theorem blk0_apply (t : Fin cfg1.N) (r : Fin 2000) (k : Fin 128) (n : Fin 100000) (hn : n.val = t.val * 2000 + r.val) :
    iblk1 (F := Ideal) V c 0 t (ix2 r k) = V c main_v26 (ix2 n k) := by
  obtain ⟨e0, e1, -⟩ := idx_facts t
  unfold iblk1
  rw [View.read_apply]
  show V c main_v26 _ = V c main_v26 _
  congr 1
  funext a
  apply Fin.ext
  match a with
  | ⟨0, _⟩ => show win1_0.index t (0 : Fin 2) * 2000 + 1 * r.val = n.val; rw [e0, hn]; omega
  | ⟨1, _⟩ => show win1_0.index t (1 : Fin 2) * 128 + 1 * k.val = k.val; rw [e1]; omega

/-- The second aggregated array's block at point `t` is its rows `2000 t … 2000 t + 1999`. -/
private theorem blk1_apply (t : Fin cfg1.N) (r : Fin 2000) (k : Fin 128) (n : Fin 100000) (hn : n.val = t.val * 2000 + r.val) :
    iblk1 (F := Ideal) V c 1 t (ix2 r k) = V c main_v38 (ix2 n k) := by
  obtain ⟨-, -, e0, e1, -⟩ := idx_facts t
  unfold iblk1
  rw [View.read_apply]
  show V c main_v38 _ = V c main_v38 _
  congr 1
  funext a
  apply Fin.ext
  match a with
  | ⟨0, _⟩ => show win1_1.index t (0 : Fin 2) * 2000 + 1 * r.val = n.val; rw [e0, hn]; omega
  | ⟨1, _⟩ => show win1_1.index t (1 : Fin 2) * 128 + 1 * k.val = k.val; rw [e1]; omega

/-- The weights' block at every point is the whole array. -/
private theorem blk2_apply (t : Fin cfg1.N) (k : Fin 128) (d : Fin 128) :
    iblk1 (F := Ideal) V c 2 t (ix2 k d) = V c main_arg9 (ix2 k d) := by
  obtain ⟨-, -, -, -, e0, e1, -⟩ := idx_facts t
  unfold iblk1
  rw [View.read_apply]
  show V c main_arg9 _ = V c main_arg9 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * d.val = d.val; rw [e1]; omega

end Blocks

section Assemble
open Idealize.ShloMosaic.ValueIdx

variable (V : (c : Dev nD) → (b : Ref sig .tc) → Buf (Elt Ideal) ((c : Thread nD τ).loc b)) (c : Dev nD)

/-- What point `t` writes back is block `t` of `combine`: at row `r`, column `d` of the block both sides are the sum over
    `k` of half the sum of the two aggregated arrays at `(2000 t + r, k)` times the weights at `(k, d)`. -/
private theorem flushed_eq (aj ak : FVec Ideal Cert.ReferenceIdeal.S100000x128 .f32)
    (w : FVec Ideal Cert.ReferenceIdeal.S128x128 .f32)
    (h26 : V c main_v26 = aj) (h38 : V c main_v38 = ak) (h9 : V c main_arg9 = w) (t : Fin cfg1.N) :
    (dat1 (F := Ideal) V c).flushed 3 t = ((cfg1.win 3).blk t).view.read (Elt Ideal) (combine aj ak w) := by
  show (cfg1.win 3).cut (grid1.coords t) ((dat1 (F := Ideal) V c).after 3 t) = _
  rw [after1_3]
  unfold out1_3
  rw [View.canon_unit_zero hz]
  simp only [View.ld_unit_zero (S := S2000x128) hz, View.ld_unit_zero (S := S128x128) hz]
  obtain ⟨-, -, -, -, -, -, e0, e1⟩ := idx_facts t
  have ht := t_lt t
  funext y
  obtain ⟨r, d, rfl⟩ : ∃ (r : Fin 2000) (d : Fin 128), y = ix2 r d := ⟨y 0, y 1, eq_ix2 (n0 := 2000) (n1 := 128) y⟩
  have hn : t.val * 2000 + r.val < 100000 := by have := r.isLt; omega
  have hi : ((cfg1.win 3).blk t).view.emb (ix2 r d) = ix2 (⟨t.val * 2000 + r.val, hn⟩ : Fin 100000) d := by
    funext a
    apply Fin.ext
    match a with
    | ⟨0, _⟩ => show win1_3.index t (0 : Fin 2) * 2000 + 1 * r.val = t.val * 2000 + r.val; rw [e0]; omega
    | ⟨1, _⟩ => show win1_3.index t (1 : Fin 2) * 128 + 1 * d.val = d.val; rw [e1]; omega
  rw [View.read_apply]
  show k1_pay1 (F := Ideal) (iblk1 V c 0 t) (iblk1 V c 1 t) (iblk1 V c 2 t) (ix2 r d) = combine aj ak w (((cfg1.win 3).blk t).view.emb (ix2 r d))
  rw [hi, pay_apply, combine_apply]
  refine Finset.sum_congr rfl fun k _ => ?_
  rw [blk0_apply V c t r k ⟨t.val * 2000 + r.val, hn⟩ rfl, blk1_apply V c t r k ⟨t.val * 2000 + r.val, hn⟩ rfl, blk2_apply V c t k d,
    h26, h38, h9]

/-- Every index of the result array is in the block of the point its row falls in. -/
private theorem cover (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  let t : Fin cfg1.N := ⟨(i 0).val / 2000, by rw [show cfg1.N = 50 from N_1]; omega⟩
  obtain ⟨-, -, -, -, -, -, e0, e1⟩ := idx_facts t
  have ht : t.val = (i 0).val / 2000 := rfl
  refine ⟨t, flush1_3 t, ?_⟩
  show i ∈ ((View.whole main_v39).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 128 ≤ (i 1).val ∧ (i 1).val < win1_3.index t (1 : Fin 2) * 128 + 128
    rw [e1]; omega

end Assemble

/-- The result array after the second region: from the region's entry contents `V` the blocks written back assemble
    `combine` of the two aggregated arrays and the output weights. -/
theorem out_eq (V : (c : Dev nD) → (b : Ref sig .tc) → Buf (Elt Ideal) ((c : Thread nD τ).loc b)) (c : Dev nD)
    (aj ak : FVec Ideal Cert.ReferenceIdeal.S100000x128 .f32)
    (w : FVec Ideal Cert.ReferenceIdeal.S128x128 .f32)
    (h26 : V c main_v26 = aj) (h38 : V c main_v38 = ak) (h9 : V c main_arg9 = w) :
    (dat1 (F := Ideal) V c).arrAt 3 cfg1.N = combine aj ak w := by
  exact (dat1 (F := Ideal) V c).arrAt_eq_of_cover 3 (combine aj ak w)
    (fun t _ => flushed_eq V c aj ak w h26 h38 h9 t) (fun i => cover i)

end Cert.KernelIdeal.Val

end
-- ==== Proof.ValHost.lean ====
/-
  The host side of the idealized kernel program, value side: what the stretches of host operations put in the buffers
  the two regions read. Under the precondition every gathered row number is a valid one, so the kernel's guarded
  gather (out-of-range rows filled) is the reference's plain gather; the concatenation, the biases' reshapes and the
  two scatter-means are the reference's own operations on the same operands.
-/
import proofs.«427996_j34093450396331_1_alg».proof.Proof.IdealRun
import proofs.«427996_j34093450396331_1_alg».proof.Defs
import proofs.«427996_j34093450396331_1_alg».proof.Proof.Gen.Pre_finite_inputs
import proofs.«427996_j34093450396331_1_alg».proof.Proof.Gen.ReferenceIdeal.Read
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ReduceAll

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

/-- The reference's scatter-mean over the index row 1 (the `j` endpoints), as a function of the message array. -/
def smeanJ (x1 : IVec Cert.ReferenceIdeal.S4x1000000 32)
    (M : FVec Ideal Cert.ReferenceIdeal.S1000000x128 .f32) :
    FVec Ideal Cert.ReferenceIdeal.S100000x128 .f32 :=
  Host.divf (F := Ideal) (Host.scatterAdd (F := Ideal) Cert.ReferenceIdeal.scatter_S100000x128_S1000000x1_S1000000x128_1_0_0_1
      (Cert.ReferenceIdeal.Read.val_main_v37 (F := Ideal)) (Cert.ReferenceIdeal.Read.val_main_v38 (F := Ideal) x1) M)
    (Cert.ReferenceIdeal.Read.val_main_v47 (F := Ideal) x1)

/-- The reference's scatter-mean over the index row 2 (the `k` endpoints), as a function of the message array. -/
def smeanK (x1 : IVec Cert.ReferenceIdeal.S4x1000000 32)
    (M : FVec Ideal Cert.ReferenceIdeal.S1000000x128 .f32) :
    FVec Ideal Cert.ReferenceIdeal.S100000x128 .f32 :=
  Host.divf (F := Ideal) (Host.scatterAdd (F := Ideal) Cert.ReferenceIdeal.scatter_S100000x128_S1000000x1_S1000000x128_1_0_0_1
      (Cert.ReferenceIdeal.Read.val_main_v49 (F := Ideal)) (Cert.ReferenceIdeal.Read.val_main_v50 (F := Ideal) x1) M)
    (Cert.ReferenceIdeal.Read.val_main_v59 (F := Ideal) x1)

variable (m : (ℓ : Loc nD τ sig) → Buf (Elt Ideal) ℓ) (ρ : Dev nD → PrngReg)

/-! ## What the host operations before the first region leave: the weights untouched, the biases as one row -/

theorem arg3_eq (c : Dev nD) : V4 m ρ c main_arg3 = (m ((c.tc : Thread nD τ).loc main_arg3)) :=
  (StableHlo.after_of_writes_sub hostOps0_3 _ hostOps0_3_writes (r := main_arg3) (by decide)).trans <|
    (StableHlo.after_of_writes_sub hostOps0_2 _ hostOps0_2_writes (r := main_arg3) (by decide)).trans <|
    (StableHlo.after_of_writes_sub hostOps0_1 _ hostOps0_1_writes (r := main_arg3) (by decide)).trans <|
    (StableHlo.after_of_writes_sub hostOps0 _ hostOps0_writes (r := main_arg3) (by decide)).trans rfl
theorem arg5_eq (c : Dev nD) : V4 m ρ c main_arg5 = (m ((c.tc : Thread nD τ).loc main_arg5)) :=
  (StableHlo.after_of_writes_sub hostOps0_3 _ hostOps0_3_writes (r := main_arg5) (by decide)).trans <|
    (StableHlo.after_of_writes_sub hostOps0_2 _ hostOps0_2_writes (r := main_arg5) (by decide)).trans <|
    (StableHlo.after_of_writes_sub hostOps0_1 _ hostOps0_1_writes (r := main_arg5) (by decide)).trans <|
    (StableHlo.after_of_writes_sub hostOps0 _ hostOps0_writes (r := main_arg5) (by decide)).trans rfl
theorem arg7_eq (c : Dev nD) : V4 m ρ c main_arg7 = (m ((c.tc : Thread nD τ).loc main_arg7)) :=
  (StableHlo.after_of_writes_sub hostOps0_3 _ hostOps0_3_writes (r := main_arg7) (by decide)).trans <|
    (StableHlo.after_of_writes_sub hostOps0_2 _ hostOps0_2_writes (r := main_arg7) (by decide)).trans <|
    (StableHlo.after_of_writes_sub hostOps0_1 _ hostOps0_1_writes (r := main_arg7) (by decide)).trans <|
    (StableHlo.after_of_writes_sub hostOps0 _ hostOps0_writes (r := main_arg7) (by decide)).trans rfl

theorem v11_eq (c : Dev nD) : V4 m ρ c main_v11 = shapeCast S1x64 (m ((c.tc : Thread nD τ).loc main_arg4)) shapeCasts_S64_S1x64 := by
  show StableHlo.after hostOps0_3 (W3 m ρ c) (Proc.devRef .tc main_v11) = _
  after_results
  rfl
theorem v12_eq (c : Dev nD) : V4 m ρ c main_v12 = shapeCast S1x64 (m ((c.tc : Thread nD τ).loc main_arg6)) shapeCasts_S64_S1x64 := by
  show StableHlo.after hostOps0_3 (W3 m ρ c) (Proc.devRef .tc main_v12) = _
  after_results
  rfl
theorem v13_eq (c : Dev nD) : V4 m ρ c main_v13 = shapeCast S1x128 (m ((c.tc : Thread nD τ).loc main_arg8)) shapeCasts_S128_S1x128 := by
  show StableHlo.after hostOps0_3 (W3 m ρ c) (Proc.devRef .tc main_v13) = _
  after_results
  rfl

/-! ## The index rows, as the second stretch of scatter-means finds them -/

/-- Row 1 of the index array (the `j` endpoints) is never written after it is sliced out: the first region leaves
    it, and the host operations in between do not name it. -/
theorem row1_eq (c : Dev nD) : W5 m ρ c (Proc.devRef .tc main_v3) = Cert.ReferenceIdeal.Read.val_main_v3 (F := Ideal) (m ((c.tc : Thread nD τ).loc main_arg1)) := by
  rw [W5_of_ne m ρ c main_v3 (by decide)]
  refine ((StableHlo.after_of_writes_sub hostOps0_3 _ hostOps0_3_writes (r := main_v3) (by decide)).trans <|
    (StableHlo.after_of_writes_sub hostOps0_2 _ hostOps0_2_writes (r := main_v3) (by decide)).trans <|
    (StableHlo.after_of_writes_sub hostOps0_1 _ hostOps0_1_writes (r := main_v3) (by decide))).trans ?_
  show StableHlo.after hostOps0 (W0 m ρ c) (Proc.devRef .tc main_v3) = _
  after_results
  rfl
/-- Row 2 of the index array (the `k` endpoints), likewise. -/
theorem row2_eq (c : Dev nD) : W5 m ρ c (Proc.devRef .tc main_v5) = Cert.ReferenceIdeal.Read.val_main_v5 (F := Ideal) (m ((c.tc : Thread nD τ).loc main_arg1)) := by
  rw [W5_of_ne m ρ c main_v5 (by decide)]
  refine ((StableHlo.after_of_writes_sub hostOps0_3 _ hostOps0_3_writes (r := main_v5) (by decide)).trans <|
    (StableHlo.after_of_writes_sub hostOps0_2 _ hostOps0_2_writes (r := main_v5) (by decide)).trans <|
    (StableHlo.after_of_writes_sub hostOps0_1 _ hostOps0_1_writes (r := main_v5) (by decide))).trans ?_
  show StableHlo.after hostOps0 (W0 m ρ c) (Proc.devRef .tc main_v5) = _
  after_results
  rfl

/-! ## The two scatter-means between the regions -/

/-- One scatter-mean in the kernel program's own vocabulary, of an index row and the message array: the rows summed
    into their segments, divided by the segment sizes (at least one). -/
def smeanRaw (idx : IVec S1000000 32) (M : FVec Ideal S1000000x128 .f32) : FVec Ideal S100000x128 .f32 :=
  Host.divf (F := Ideal)
    (Host.scatterAdd (F := Ideal) scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 idx) M)
    (broadcastInDim S100000x128 ![0, 1] bcast_S100000x1_S100000x128_0_1 (broadcastInDim S100000x1 ![0] bcast_S100000_S100000x1_0
      (maximumf (F := Ideal)
        (Host.scatterAdd (F := Ideal) scatter_S100000_S1000000x1_S1000000_n_0_0_1
          (broadcastInDim S100000 ![] bcast_S_S100000 (constant (F := Ideal) S_ .f32 0x00000000#32))
          (broadcastInDim S1000000x1 ![0] bcast_S1000000_S1000000x1_0 idx)
          (broadcastInDim S1000000 ![] bcast_S_S1000000 (constant (F := Ideal) S_ .f32 0x3F800000#32)))
        (broadcastInDim S100000 ![] bcast_S_S100000 (constant (F := Ideal) S_ .f32 0x3F800000#32)))))

theorem after_v26 (W : Valuation τ sig (Elt Ideal)) :
    StableHlo.after hostOps1 W (Proc.devRef .tc main_v26) = smeanRaw (W (Proc.devRef .tc main_v3)) (W (Proc.devRef .tc main_v14)) := by
  unfold smeanRaw
  after_results_simp
theorem after_v38 (W : Valuation τ sig (Elt Ideal)) :
    StableHlo.after hostOps1 W (Proc.devRef .tc main_v38) = smeanRaw (W (Proc.devRef .tc main_v5)) (W (Proc.devRef .tc main_v14)) := by
  unfold smeanRaw
  after_results_simp

/-- The kernel program's scatter-mean over row 1 is the reference's, operation for operation. -/
theorem smeanRaw_J (x1 : IVec Cert.ReferenceIdeal.S4x1000000 32) (M : FVec Ideal Cert.ReferenceIdeal.S1000000x128 .f32) :
    smeanRaw (Cert.ReferenceIdeal.Read.val_main_v3 (F := Ideal) x1) M = smeanJ x1 M := by
  unfold smeanRaw smeanJ Cert.ReferenceIdeal.Read.val_main_v37 Cert.ReferenceIdeal.Read.val_main_v38 Cert.ReferenceIdeal.Read.val_main_v47
    Cert.ReferenceIdeal.Read.val_main_v46 Cert.ReferenceIdeal.Read.val_main_v45 Cert.ReferenceIdeal.Read.val_main_v44 Cert.ReferenceIdeal.Read.val_main_v43
    Cert.ReferenceIdeal.Read.val_main_v42 Cert.ReferenceIdeal.Read.val_main_v41 Cert.ReferenceIdeal.Read.val_main_v40
    Cert.ReferenceIdeal.Read.val_main_cst Cert.ReferenceIdeal.Read.val_main_cst_3 Cert.ReferenceIdeal.Read.val_main_cst_4 Cert.ReferenceIdeal.Read.val_main_cst_5
  rfl
/-- And over row 2. -/
theorem smeanRaw_K (x1 : IVec Cert.ReferenceIdeal.S4x1000000 32) (M : FVec Ideal Cert.ReferenceIdeal.S1000000x128 .f32) :
    smeanRaw (Cert.ReferenceIdeal.Read.val_main_v5 (F := Ideal) x1) M = smeanK x1 M := by
  unfold smeanRaw smeanK Cert.ReferenceIdeal.Read.val_main_v49 Cert.ReferenceIdeal.Read.val_main_v50 Cert.ReferenceIdeal.Read.val_main_v59
    Cert.ReferenceIdeal.Read.val_main_v58 Cert.ReferenceIdeal.Read.val_main_v57 Cert.ReferenceIdeal.Read.val_main_v56 Cert.ReferenceIdeal.Read.val_main_v55
    Cert.ReferenceIdeal.Read.val_main_v54 Cert.ReferenceIdeal.Read.val_main_v53 Cert.ReferenceIdeal.Read.val_main_v52
    Cert.ReferenceIdeal.Read.val_main_cst_6 Cert.ReferenceIdeal.Read.val_main_cst_7 Cert.ReferenceIdeal.Read.val_main_cst_8 Cert.ReferenceIdeal.Read.val_main_cst_9
  rfl

/-- The two aggregated arrays the second region reads are the reference's scatter-means of the message array the
    first region left. -/
theorem v26_eq (c : Dev nD) : V6 m ρ c main_v26 = smeanJ (m ((c.tc : Thread nD τ).loc main_arg1)) (W5 m ρ c (Proc.devRef .tc main_v14)) := by
  show StableHlo.after hostOps1 (W5 m ρ c) (Proc.devRef .tc main_v26) = _
  rw [after_v26, row1_eq]
  exact smeanRaw_J _ _
theorem v38_eq (c : Dev nD) : V6 m ρ c main_v38 = smeanK (m ((c.tc : Thread nD τ).loc main_arg1)) (W5 m ρ c (Proc.devRef .tc main_v14)) := by
  show StableHlo.after hostOps1 (W5 m ρ c) (Proc.devRef .tc main_v38) = _
  rw [after_v38, row2_eq]
  exact smeanRaw_K _ _
/-- The output weights reach the second region as launched. -/
theorem arg9_eq (c : Dev nD) : V6 m ρ c main_arg9 = (m ((c.tc : Thread nD τ).loc main_arg9)) :=
  (StableHlo.after_of_writes_sub hostOps1 _ hostOps1_writes (r := main_arg9) (by decide)).trans <|
    (W5_of_ne m ρ c main_arg9 (by decide)).trans <|
    (StableHlo.after_of_writes_sub hostOps0_3 _ hostOps0_3_writes (r := main_arg9) (by decide)).trans <|
    (StableHlo.after_of_writes_sub hostOps0_2 _ hostOps0_2_writes (r := main_arg9) (by decide)).trans <|
    (StableHlo.after_of_writes_sub hostOps0_1 _ hostOps0_1_writes (r := main_arg9) (by decide)).trans <|
    (StableHlo.after_of_writes_sub hostOps0 _ hostOps0_writes (r := main_arg9) (by decide)).trans rfl

end Cert.KernelIdeal.Val

end
-- ==== Proof.ValGather.lean ====
/-
  The concatenated rows the first region reads, value side. Under the precondition every row number in rows 0 and 3
  of the index array lies in [0, 100000), so it is not negative (the wrap-around adds nothing), it passes the kernel's
  range test, and the kernel's guarded gather — out-of-range rows filled with a fixed pattern — selects the gathered
  row everywhere: the reference's plain gather. The concatenation with the attribute columns is the same operation on
  both sides.
-/
import proofs.«427996_j34093450396331_1_alg».proof.Proof.IdealRun
import proofs.«427996_j34093450396331_1_alg».proof.Defs
import proofs.«427996_j34093450396331_1_alg».proof.Proof.Gen.Pre_finite_inputs
import proofs.«427996_j34093450396331_1_alg».proof.Proof.Gen.ReferenceIdeal.Read
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ReduceAll

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

namespace Gather

/-! ## The guarded gather in the kernel program's own vocabulary -/

/-- Row 0 of the index array, as a vector. -/
def rowA (x1 : IVec S4x1000000 32) : IVec S1000000 32 :=
  shapeCast S1000000 (extractStridedSlice S1x1000000 ![0, 0] x1 slices_S4x1000000_S1x1000000_0_0) shapeCasts_S1x1000000_S1000000
/-- Row 3 of the index array, as a vector. -/
def rowB (x1 : IVec S4x1000000 32) : IVec S1000000 32 :=
  shapeCast S1000000 (extractStridedSlice S1x1000000 ![3, 0] x1 slices_S4x1000000_S1x1000000_3_0) shapeCasts_S1x1000000_S1000000

/-- A row number with a negative one wrapped around once: `i + 100000` where `i < 0`, else `i`. -/
def wrap (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 100000#32))) idx

/-- The wrapped row numbers as a column of start indices. -/
def startCol (idx : IVec S1000000 32) : IVec S1000000x1 32 :=
  broadcastInDim S1000000x1 ![0] bcast_S1000000_S1000000x1_0 (wrap idx)

/-- The range test of the guarded gather: per row, whether the wrapped row number lies in [0, 99999]. -/
def inRange (idx : IVec S1000000 32) : IVec S1000000 1 :=
  Host.reduce IntOp.andi
    (andi (cmpi .sge (startCol idx) (broadcastInDim S1000000x1 ![] bcast_S_S1000000x1 (constantI S_ 32 0#32)))
      (cmpi .sle (startCol idx) (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- The guarded gather of table rows: the gathered row where the range test passes, a fixed pattern elsewhere. -/
def takeRaw (x : FVec Ideal S100000x128 .f32) (idx : IVec S1000000 32) : FVec Ideal S1000000x128 .f32 :=
  select (broadcastInDim S1000000x128 ![0] bcast_S1000000_S1000000x128_0 (inRange idx))
    (Host.gather gather_S100000x128_S1000000x1_S1000000x128_1_0_n_n_0_1_1128 x (startCol idx))
    (broadcastInDim S1000000x128 ![] bcast_S_S1000000x128 (constant (F := Ideal) S_ .f32 0x7FC00000#32))

/-! ## What each stretch of host operations leaves, of the buffers it reads -/

theorem slice_row0 (W : Valuation τ sig (Elt Ideal)) :
    StableHlo.after hostOps0 W (Proc.devRef .tc main_v1) = rowA (W (Proc.devRef .tc main_arg1)) := by
  unfold rowA
  after_results
  rfl
theorem slice_row3 (W : Valuation τ sig (Elt Ideal)) :
    StableHlo.after hostOps0 W (Proc.devRef .tc main_v7) = rowB (W (Proc.devRef .tc main_arg1)) := by
  unfold rowB
  after_results
  rfl

theorem call0_range (W : Valuation τ sig (Elt Ideal)) :
    StableHlo.after hostOps0_1 W (Proc.devRef .tc main_call0_v12) = inRange (W (Proc.devRef .tc main_v1)) := by
  unfold inRange startCol wrap
  after_results_simp
  dsimp only [StableHlo.TRef.ofBuf, StableHlo.TRef.toBuf]
  simp only [cast_eq]
theorem call0_rows (W : Valuation τ sig (Elt Ideal)) :
    StableHlo.after hostOps0_1 W (Proc.devRef .tc main_call0_v13)
      = Host.gather gather_S100000x128_S1000000x1_S1000000x128_1_0_n_n_0_1_1128 (W (Proc.devRef .tc main_arg0)) (startCol (W (Proc.devRef .tc main_v1))) := by
  unfold startCol wrap
  after_results_simp
  dsimp only [StableHlo.TRef.ofBuf, StableHlo.TRef.toBuf]
  simp only [cast_eq]
theorem call0_fill (W : Valuation τ sig (Elt Ideal)) :
    StableHlo.after hostOps0_1 W (Proc.devRef .tc main_call0_v15)
      = broadcastInDim S1000000x128 ![] bcast_S_S1000000x128 (constant (F := Ideal) S_ .f32 0x7FC00000#32) := by
  after_results_simp
  dsimp only [StableHlo.TRef.ofBuf, StableHlo.TRef.toBuf]
  simp only [cast_eq]
theorem call0_mask (W : Valuation τ sig (Elt Ideal)) :
    StableHlo.after hostOps0_1 W (Proc.devRef .tc main_call0_v14)
      = broadcastInDim S1000000x128 ![0] bcast_S1000000_S1000000x128_0 (StableHlo.after hostOps0_1 W (Proc.devRef .tc main_call0_v12)) := by
  after_results_simp
  generalize (StableHlo.TRef.of main_call0_v12 _ _ _).toBuf _ = a
  dsimp only [StableHlo.TRef.ofBuf, StableHlo.TRef.toBuf]
  simp only [cast_eq]
theorem call0_select (W : Valuation τ sig (Elt Ideal)) :
    StableHlo.after hostOps0_1 W (Proc.devRef .tc main_v8)
      = select (StableHlo.after hostOps0_1 W (Proc.devRef .tc main_call0_v14)) (StableHlo.after hostOps0_1 W (Proc.devRef .tc main_call0_v13))
          (StableHlo.after hostOps0_1 W (Proc.devRef .tc main_call0_v15)) := by
  after_results_simp
  generalize (StableHlo.TRef.of main_call0_v14 _ _ _).toBuf _ = a
  generalize (StableHlo.TRef.of main_call0_v13 _ _ _).toBuf _ = b
  generalize (StableHlo.TRef.of main_call0_v15 _ _ _).toBuf _ = c
  dsimp only [StableHlo.TRef.ofBuf, StableHlo.TRef.toBuf]
  simp only [cast_eq]
/-- The first guarded gather, whole: what it leaves in its result buffer, of the table and the index row it reads. -/
theorem call0_take (W : Valuation τ sig (Elt Ideal)) :
    StableHlo.after hostOps0_1 W (Proc.devRef .tc main_v8) = takeRaw (W (Proc.devRef .tc main_arg0)) (W (Proc.devRef .tc main_v1)) := by
  rw [call0_select, call0_mask, call0_range, call0_rows, call0_fill]
  unfold takeRaw
  rfl

theorem call1_range (W : Valuation τ sig (Elt Ideal)) :
    StableHlo.after hostOps0_2 W (Proc.devRef .tc main_call1_v12) = inRange (W (Proc.devRef .tc main_v7)) := by
  unfold inRange startCol wrap
  after_results_simp
  dsimp only [StableHlo.TRef.ofBuf, StableHlo.TRef.toBuf]
  simp only [cast_eq]
theorem call1_rows (W : Valuation τ sig (Elt Ideal)) :
    StableHlo.after hostOps0_2 W (Proc.devRef .tc main_call1_v13)
      = Host.gather gather_S100000x128_S1000000x1_S1000000x128_1_0_n_n_0_1_1128 (W (Proc.devRef .tc main_arg0)) (startCol (W (Proc.devRef .tc main_v7))) := by
  unfold startCol wrap
  after_results_simp
  dsimp only [StableHlo.TRef.ofBuf, StableHlo.TRef.toBuf]
  simp only [cast_eq]
theorem call1_fill (W : Valuation τ sig (Elt Ideal)) :
    StableHlo.after hostOps0_2 W (Proc.devRef .tc main_call1_v15)
      = broadcastInDim S1000000x128 ![] bcast_S_S1000000x128 (constant (F := Ideal) S_ .f32 0x7FC00000#32) := by
  after_results_simp
  dsimp only [StableHlo.TRef.ofBuf, StableHlo.TRef.toBuf]
  simp only [cast_eq]
theorem call1_mask (W : Valuation τ sig (Elt Ideal)) :
    StableHlo.after hostOps0_2 W (Proc.devRef .tc main_call1_v14)
      = broadcastInDim S1000000x128 ![0] bcast_S1000000_S1000000x128_0 (StableHlo.after hostOps0_2 W (Proc.devRef .tc main_call1_v12)) := by
  after_results_simp
  generalize (StableHlo.TRef.of main_call1_v12 _ _ _).toBuf _ = a
  dsimp only [StableHlo.TRef.ofBuf, StableHlo.TRef.toBuf]
  simp only [cast_eq]
theorem call1_select (W : Valuation τ sig (Elt Ideal)) :
    StableHlo.after hostOps0_2 W (Proc.devRef .tc main_v9)
      = select (StableHlo.after hostOps0_2 W (Proc.devRef .tc main_call1_v14)) (StableHlo.after hostOps0_2 W (Proc.devRef .tc main_call1_v13))
          (StableHlo.after hostOps0_2 W (Proc.devRef .tc main_call1_v15)) := by
  after_results_simp
  generalize (StableHlo.TRef.of main_call1_v14 _ _ _).toBuf _ = a
  generalize (StableHlo.TRef.of main_call1_v13 _ _ _).toBuf _ = b
  generalize (StableHlo.TRef.of main_call1_v15 _ _ _).toBuf _ = c
  dsimp only [StableHlo.TRef.ofBuf, StableHlo.TRef.toBuf]
  simp only [cast_eq]
/-- The second guarded gather, whole: what it leaves in its result buffer, of the table and the index row it reads. -/
theorem call1_take (W : Valuation τ sig (Elt Ideal)) :
    StableHlo.after hostOps0_2 W (Proc.devRef .tc main_v9) = takeRaw (W (Proc.devRef .tc main_arg0)) (W (Proc.devRef .tc main_v7)) := by
  rw [call1_select, call1_mask, call1_range, call1_rows, call1_fill]
  unfold takeRaw
  rfl

theorem join (W : Valuation τ sig (Elt Ideal)) :
    StableHlo.after hostOps0_3 W (Proc.devRef .tc main_v10)
      = concatenate S1000000x259 1 [⟨S1000000x128, W (Proc.devRef .tc main_v8)⟩, ⟨S1000000x128, W (Proc.devRef .tc main_v9)⟩,
          ⟨S1000000x3, W (Proc.devRef .tc main_arg2)⟩] concatenates_S1000000x128_S1000000x128_S1000000x3_S1000000x259_d1 := by
  after_results
  rfl

/-! ## With every row number in range the guard is idle -/

/-- A fold by `and` from 1 over 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_ones f l fun n hn => h n (List.mem_cons_of_mem _ hn)

/-- A reduction by `and` from 1 of an array of 1s is 1 everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x _ fun n _ => hx n

/-- A row number in [0, 100000) is not wrapped. -/
theorem wrap_eq (idx : IVec S1000000 32) (k : S1000000.Idx) (h0 : IntOp.cmpi .sge (idx k) 0#32 = 1#1) : wrap idx k = idx k := by
  have hn : ¬ IntOp.cmpi .slt (idx k) 0#32 = 1#1 := fun h => absurd (IntOp.cmpi_slt.1 h) (not_lt.2 (IntOp.cmpi_sge.1 h0))
  show Scalar.select (IntOp.cmpi .slt (idx k) 0#32) (IntOp.addi (idx k) 100000#32) (idx k) = idx k
  unfold Scalar.select
  exact if_neg hn

/-- With every row number in [0, 100000) the range test passes at every row. -/
theorem inRange_one (idx : IVec S1000000 32)
    (H : ∀ e, IntOp.cmpi .sge (idx e) 0#32 = 1#1 ∧ IntOp.cmpi .slt (idx e) 100000#32 = 1#1) (j : S1000000.Idx) :
    inRange idx j = 1#1 := by
  have key : ∀ k, IntOp.andi (IntOp.cmpi .sge (wrap idx k) 0#32) (IntOp.cmpi .sle (wrap idx k) 99999#32) = 1#1 := fun k => by
    rw [wrap_eq idx k (H k).1]
    refine IntOp.andi_eq_one.2 ⟨(H k).1, IntOp.cmpi_sle.2 ?_⟩
    have h1 := IntOp.cmpi_slt.1 (H k).2
    have a : (100000#32 : BitVec 32).toInt = 100000 := by decide
    have b : (99999#32 : BitVec 32).toInt = 99999 := by decide
    omega
  unfold inRange
  refine reduce_andi_ones _ _ _ _ j (fun i => ?_) rfl
  simp only [andi, cmpi, startCol, broadcastInDim, constantI]
  exact key _

/-- With every row number in [0, 100000) the guarded gather is the plain gather of the same start indices. -/
theorem takeRaw_eq (x : FVec Ideal S100000x128 .f32) (idx : IVec S1000000 32)
    (H : ∀ e, IntOp.cmpi .sge (idx e) 0#32 = 1#1 ∧ IntOp.cmpi .slt (idx e) 100000#32 = 1#1) :
    takeRaw x idx = Host.gather gather_S100000x128_S1000000x1_S1000000x128_1_0_n_n_0_1_1128 x (startCol idx) := by
  funext i
  have hm : broadcastInDim S1000000x128 ![0] bcast_S1000000_S1000000x128_0 (inRange idx) i = 1#1 := by
    unfold broadcastInDim
    exact inRange_one idx H _
  unfold takeRaw select
  dsimp only
  rw [hm]
  unfold Scalar.select
  exact if_pos rfl

/-! ## The precondition, read back -/

variable (m : (ℓ : Loc nD τ sig) → Buf (Elt Ideal) ℓ)

instance scalarIdxSubsingleton : Subsingleton (⟨0, ![]⟩ : Shape).Idx := ⟨fun a b => funext fun d => d.elim0⟩

/-- THE PRECONDITION DECODED: every row number in rows 0 and 3 of the index array lies in [0, 100000). -/
theorem pre_rows (hpre : Cert.Pre_KernelIdeal m) (c : Dev nD) :
    (∀ e, IntOp.cmpi .sge (rowA (m ((c.tc : Thread nD τ).loc main_arg1)) e) 0#32 = 1#1 ∧ IntOp.cmpi .slt (rowA (m ((c.tc : Thread nD τ).loc main_arg1)) e) 100000#32 = 1#1)
    ∧ (∀ e, IntOp.cmpi .sge (rowB (m ((c.tc : Thread nD τ).loc main_arg1)) e) 0#32 = 1#1 ∧ IntOp.cmpi .slt (rowB (m ((c.tc : Thread nD τ).loc main_arg1)) e) 100000#32 = 1#1) := by
  have h := congrFun (hpre c) ValueIdx.ix0
  generalize m ((c.tc : Thread nD τ).loc main_arg1) = x1 at h ⊢
  generalize m ((c.tc : Thread nD τ).loc main_arg0) = x0 at h
  generalize m ((c.tc : Thread nD τ).loc main_arg2) = x2 at h
  generalize m ((c.tc : Thread nD τ).loc main_arg3) = x3 at h
  generalize m ((c.tc : Thread nD τ).loc main_arg4) = x4 at h
  generalize m ((c.tc : Thread nD τ).loc main_arg5) = x5 at h
  generalize m ((c.tc : Thread nD τ).loc main_arg6) = x6 at h
  generalize m ((c.tc : Thread nD τ).loc main_arg7) = x7 at h
  generalize m ((c.tc : Thread nD τ).loc main_arg8) = x8 at h
  generalize m ((c.tc : Thread nD τ).loc main_arg9) = x9 at h
  dsimp only [Cert.Pre_finite_inputs.fn, Cert.Pre_finite_inputs.fn_part1, Cert.Pre_finite_inputs.fn_part2, Cert.Pre_finite_inputs.fn_part3] at h
  obtain ⟨h1, hB⟩ := IntOp.andi_eq_one.1 h
  obtain ⟨-, hA⟩ := IntOp.andi_eq_one.1 h1
  clear h h1
  exact ⟨fun e => IntOp.andi_eq_one.1 (Host.reduce_andi_all _ _ _ _ _ hA e),
    fun e => IntOp.andi_eq_one.1 (Host.reduce_andi_all _ _ _ _ _ hB e)⟩

end Gather

open Gather

variable (m : (ℓ : Loc nD τ sig) → Buf (Elt Ideal) ℓ) (ρ : Dev nD → PrngReg)

/-- Under the precondition the concatenated rows the first region reads are the reference's. -/
theorem v10_eq (hpre : Cert.Pre_KernelIdeal m) (c : Dev nD) :
    V4 m ρ c main_v10 = Cert.ReferenceIdeal.Read.val_main_v22 (F := Ideal) (m ((c.tc : Thread nD τ).loc main_arg0)) (m ((c.tc : Thread nD τ).loc main_arg1)) (m ((c.tc : Thread nD τ).loc main_arg2)) := by
  obtain ⟨hA, hB⟩ := pre_rows m hpre c
  -- after the slices: the two index rows; the table as launched
  have r0 : W1 m ρ c (Proc.devRef .tc main_v1) = rowA (m ((c.tc : Thread nD τ).loc main_arg1)) := slice_row0 (W0 m ρ c)
  have r3 : W1 m ρ c (Proc.devRef .tc main_v7) = rowB (m ((c.tc : Thread nD τ).loc main_arg1)) := slice_row3 (W0 m ρ c)
  have t1 : W1 m ρ c (Proc.devRef .tc main_arg0) = m ((c.tc : Thread nD τ).loc main_arg0) :=
    StableHlo.after_of_writes_sub hostOps0 _ hostOps0_writes (r := main_arg0) (by decide)
  -- after the first gather
  have g0 : W2 m ρ c (Proc.devRef .tc main_v8)
      = takeRaw (m ((c.tc : Thread nD τ).loc main_arg0)) (rowA (m ((c.tc : Thread nD τ).loc main_arg1))) :=
    (call0_take (W1 m ρ c)).trans (by rw [t1, r0])
  have r3' : W2 m ρ c (Proc.devRef .tc main_v7) = rowB (m ((c.tc : Thread nD τ).loc main_arg1)) :=
    (StableHlo.after_of_writes_sub hostOps0_1 _ hostOps0_1_writes (r := main_v7) (by decide)).trans r3
  have t2 : W2 m ρ c (Proc.devRef .tc main_arg0) = m ((c.tc : Thread nD τ).loc main_arg0) :=
    (StableHlo.after_of_writes_sub hostOps0_1 _ hostOps0_1_writes (r := main_arg0) (by decide)).trans t1
  -- after the second gather
  have g0' : W3 m ρ c (Proc.devRef .tc main_v8)
      = takeRaw (m ((c.tc : Thread nD τ).loc main_arg0)) (rowA (m ((c.tc : Thread nD τ).loc main_arg1))) :=
    (StableHlo.after_of_writes_sub hostOps0_2 _ hostOps0_2_writes (r := main_v8) (by decide)).trans g0
  have g1 : W3 m ρ c (Proc.devRef .tc main_v9)
      = takeRaw (m ((c.tc : Thread nD τ).loc main_arg0)) (rowB (m ((c.tc : Thread nD τ).loc main_arg1))) :=
    (call1_take (W2 m ρ c)).trans (by rw [t2, r3'])
  have a2 : W3 m ρ c (Proc.devRef .tc main_arg2) = m ((c.tc : Thread nD τ).loc main_arg2) :=
    (StableHlo.after_of_writes_sub hostOps0_2 _ hostOps0_2_writes (r := main_arg2) (by decide)).trans <|
      (StableHlo.after_of_writes_sub hostOps0_1 _ hostOps0_1_writes (r := main_arg2) (by decide)).trans <|
      (StableHlo.after_of_writes_sub hostOps0 _ hostOps0_writes (r := main_arg2) (by decide)).trans rfl
  -- the join, and the guard dropped on both gathers
  refine (join (W3 m ρ c)).trans ?_
  rw [g0', g1, a2, takeRaw_eq _ _ hA, takeRaw_eq _ _ hB]
  unfold startCol wrap rowA rowB Cert.ReferenceIdeal.Read.val_main_v22 Cert.ReferenceIdeal.Read.val_main_v14 Cert.ReferenceIdeal.Read.val_main_v21
    Cert.ReferenceIdeal.Read.val_main_v13 Cert.ReferenceIdeal.Read.val_main_v20 Cert.ReferenceIdeal.Read.val_main_v12 Cert.ReferenceIdeal.Read.val_main_v19
    Cert.ReferenceIdeal.Read.val_main_v9 Cert.ReferenceIdeal.Read.val_main_v16 Cert.ReferenceIdeal.Read.val_main_v11 Cert.ReferenceIdeal.Read.val_main_v18
    Cert.ReferenceIdeal.Read.val_main_v8 Cert.ReferenceIdeal.Read.val_main_v15 Cert.ReferenceIdeal.Read.val_main_v10 Cert.ReferenceIdeal.Read.val_main_v17
    Cert.ReferenceIdeal.Read.val_main_v1 Cert.ReferenceIdeal.Read.val_main_v7 Cert.ReferenceIdeal.Read.val_main_v0 Cert.ReferenceIdeal.Read.val_main_v6
    Cert.ReferenceIdeal.Read.val_main_c Cert.ReferenceIdeal.Read.val_main_c_0 Cert.ReferenceIdeal.Read.val_main_c_1 Cert.ReferenceIdeal.Read.val_main_c_2
  rfl

end Cert.KernelIdeal.Val

end
-- ==== Proof.ValBridge.lean ====
/-
  The kernel program's result is the reference's, value side: the result array the second region assembles is the
  combine stage of the two scatter-means of the message array the first region assembled, which is the perceptron
  stage of the concatenated rows — each the reference's own stage of the same arguments, so the whole is the
  reference's last stage.
-/
import proofs.«427996_j34093450396331_1_alg».proof.Proof.ValMlp
import proofs.«427996_j34093450396331_1_alg».proof.Proof.ValComb
import proofs.«427996_j34093450396331_1_alg».proof.Proof.ValHost
import proofs.«427996_j34093450396331_1_alg».proof.Proof.ValGather

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg)

/-- The message array the first region leaves is the reference's message stage of the arguments. -/
theorem messages_eq (hpre : Cert.Pre_KernelIdeal m) (c : Dev nD) :
    W5 m ρ c (Proc.devRef .tc main_v14) = Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W5_arr m ρ c 7).trans (msgs_eq (V4 m ρ) c _ _ _ _ _ _ _ _ _ (v10_eq m ρ hpre c) (arg3_eq m ρ c) (v11_eq m ρ c)
    (arg5_eq m ρ c) (v12_eq m ρ c) (arg7_eq m ρ c) (v13_eq m ρ c))

/-- The reference's last stage is the combine of its two scatter-means of its message stage. -/
theorem ref_last_stage (x0 : (⟨S100000x128, .f32⟩ : BufTy).Contents (Elt Ideal)) (x1 : (⟨S4x1000000, .i32⟩ : BufTy).Contents (Elt Ideal)) (x2 : (⟨S1000000x3, .f32⟩ : BufTy).Contents (Elt Ideal)) (x3 : (⟨S259x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal)) :
    Cert.ReferenceIdeal.Read.val_main_v64 (F := Ideal) x0 x1 x2 x3 x4 x5 x6 x7 x8 x9
      = combine (smeanJ x1 (Cert.ReferenceIdeal.Read.val_main_v36 (F := Ideal) x0 x1 x2 x3 x4 x5 x6 x7 x8))
          (smeanK x1 (Cert.ReferenceIdeal.Read.val_main_v36 (F := Ideal) x0 x1 x2 x3 x4 x5 x6 x7 x8)) x9 := by
  unfold combine smeanJ smeanK Cert.ReferenceIdeal.Read.val_main_v64 Cert.ReferenceIdeal.Read.val_main_v63 Cert.ReferenceIdeal.Read.val_main_v61 Cert.ReferenceIdeal.Read.val_main_v48 Cert.ReferenceIdeal.Read.val_main_v60
    Cert.ReferenceIdeal.Read.val_main_v39 Cert.ReferenceIdeal.Read.val_main_v51
  rfl

/-- The result array at the end of the kernel program is the reference's last stage of the same arguments. -/
theorem result_eq (hpre : Cert.Pre_KernelIdeal m) (c : Dev nD) :
    (dat1 (F := Ideal) (V6 m ρ) c).arrAt 3 cfg1.N
      = Cert.ReferenceIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [out_eq (V6 m ρ) c _ _ _ (v26_eq m ρ c) (v38_eq m ρ c) (arg9_eq m ρ c), messages_eq m ρ hpre c]
  exact (ref_last_stage _ _ _ _ _ _ _ _ _ _).symm

end Cert.KernelIdeal.Val

end
-- ==== Proof.lean ====
/-
  The certificate of the dihedral message-passing kernel against its jnp reference, over the extended reals.

  Both programs gather two endpoint rows of `x` per dihedral, join them with three attribute columns, apply a
  three-layer perceptron with SiLU to every joined row, average the messages into their `j` and `k` endpoint nodes,
  halve the sum of the two averages and multiply by the output weights. The kernel program runs the perceptron and the
  last product as two pipelined kernel regions over row blocks (200 blocks of 5000 rows, 50 blocks of 2000 rows); the
  gathers, the join and the two scatter-means are host operations in both programs.

  At the ideal instance a change of float format is the identity, a block matrix product into a zero accumulator is
  the plain sum over the contracted axis, and the kernel's logistic is the reference's `1 / (1 + exp (-x))`: the
  perceptron's blocks assemble the reference's message stage and the last region's blocks its last stage, index by
  index, with no algebraic law beyond reading each sum at an index. The one difference between the programs is the
  gather: the kernel's fills a row whose number is out of range with a fixed pattern where the reference's clamps the
  number; under the precondition (every gathered row number lies in [0, 100000)) the two agree.

  The frames of the two kernel programs are proved from each region's own run (the body's one store through the whole
  output block, the inputs left in place), threaded through @main's seven items; the reference's frame is its run.
  Nothing was rewritten by the ideal pass, so the idealization claim is trivial.
-/
import proofs.«427996_j34093450396331_1_alg».proof.Defs
import proofs.«427996_j34093450396331_1_alg».proof.Proof.Gen.Kernel
import proofs.«427996_j34093450396331_1_alg».proof.Proof.Gen.KernelIdeal
import proofs.«427996_j34093450396331_1_alg».proof.Proof.Gen.ReferenceIdeal
import proofs.«427996_j34093450396331_1_alg».proof.Proof.Gen.Pre_finite_inputs
import proofs.«427996_j34093450396331_1_alg».proof.Proof.Gen.ReferenceIdeal.Run
import proofs.«427996_j34093450396331_1_alg».proof.Proof.Gen.ReferenceIdeal.Read
import proofs.«427996_j34093450396331_1_alg».proof.Proof.BitsRun
import proofs.«427996_j34093450396331_1_alg».proof.Proof.IdealRun
import proofs.«427996_j34093450396331_1_alg».proof.Proof.ValBridge
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_kernel : Cert.frame_Kernel := fun m ρ _ => Cert.Kernel.Fr.frame m ρ

/-- So does the idealized kernel program. -/
theorem frame_kernel_ideal : Cert.frame_KernelIdeal := fun m ρ _ => Cert.KernelIdeal.Fr.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, under the precondition, the kernel program's result array (what the last
    region's write-backs assemble) and the reference's result (its last stage) are one array. -/
theorem algebraic : Cert.algebraic_KernelIdeal_ReferenceIdeal := by
  intro m ρ m' ρ' hpre hagree
  refine ⟨fun c => (Cert.KernelIdeal.Fr.dat1 (F := Ideal) (Cert.KernelIdeal.Fr.V6 m ρ) c).arrAt 3 Cert.KernelIdeal.cfg1.N,
    Cert.KernelIdeal.Fr.run_frame_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v64_eq, h0, h1, h2, h3, h4, h5, h6, h7, h8, h9]
  exact (Cert.KernelIdeal.Val.result_eq m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
